-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v103)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v103) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v82) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S256x32768 : Shape := ⟨2, ![256, 32768]⟩
abbrev S256x256 : Shape := ⟨2, ![256, 256]⟩
abbrev S16x256 : Shape := ⟨2, ![16, 256]⟩
abbrev S_ : Shape := ⟨0, ![]⟩

class Facts : Prop where
  bcast_S_S256x32768 : S_.BroadcastsInDim S256x32768 (![] : Fin 0 → Fin S256x32768.rank)
  reducesTo_S256x32768_S_d0_1 : S256x32768.ReducesTo [0, 1] S_
  h_S_ : 0 < S_.numel
  bcast_S_S256x256 : S_.BroadcastsInDim S256x256 (![] : Fin 0 → Fin S256x256.rank)
  reducesTo_S256x256_S_d0_1 : S256x256.ReducesTo [0, 1] S_
  bcast_S_S16x256 : S_.BroadcastsInDim S16x256 (![] : Fin 0 → Fin S16x256.rank)
  reducesTo_S16x256_S_d0_1 : S16x256.ReducesTo [0, 1] S_

variable [Facts]

def fn_part1 {F : FTy → Type} [FloatOps F] (main_v13 : IVec S_ 1) (main_v16 : IVec S16x256 1) : IVec S_ 1 :=
  let main_c_5 : IVec S_ 1 := constantI S_ 1 1#1
  let main_v17 : IVec S_ 1 := (fun x v => Host.reduce IntOp.andi x v reducesTo_S16x256_S_d0_1 h_S_) main_v16 main_c_5
  let main_v18 : IVec S_ 1 := andi main_v13 main_v17
  main_v18

def fn {F : FTy → Type} [FloatOps F] (main_arg0 : FVec F S256x32768 .f32) (main_arg1 : FVec F S256x256 .f32) (main_arg2 : FVec F S256x256 .f32) (main_arg3 : FVec F S16x256 .f32) : IVec S_ 1 :=
  let main_v0 : FVec F S256x32768 .f32 := Host.absf main_arg0
  let main_cst : FVec F S_ .f32 := constant S_ .f32 0x7F800000#32
  let main_v1 : FVec F S256x32768 .f32 := broadcastInDim S256x32768 ![] bcast_S_S256x32768 main_cst
  let main_v2 : IVec S256x32768 1 := cmpf .olt main_v0 main_v1
  let main_c : IVec S_ 1 := constantI S_ 1 1#1
  let main_v3 : IVec S_ 1 := (fun x v => Host.reduce IntOp.andi x v reducesTo_S256x32768_S_d0_1 h_S_) main_v2 main_c
  let main_v4 : FVec F S256x256 .f32 := Host.absf main_arg1
  let main_cst_0 : FVec F S_ .f32 := constant S_ .f32 0x7F800000#32
  let main_v5 : FVec F S256x256 .f32 := broadcastInDim S256x256 ![] bcast_S_S256x256 main_cst_0
  let main_v6 : IVec S256x256 1 := cmpf .olt main_v4 main_v5
  let main_c_1 : IVec S_ 1 := constantI S_ 1 1#1
  let main_v7 : IVec S_ 1 := (fun x v => Host.reduce IntOp.andi x v reducesTo_S256x256_S_d0_1 h_S_) main_v6 main_c_1
  let main_v8 : IVec S_ 1 := andi main_v3 main_v7
  let main_v9 : FVec F S256x256 .f32 := Host.absf main_arg2
  let main_cst_2 : FVec F S_ .f32 := constant S_ .f32 0x7F800000#32
  let main_v10 : FVec F S256x256 .f32 := broadcastInDim S256x256 ![] bcast_S_S256x256 main_cst_2
  let main_v11 : IVec S256x256 1 := cmpf .olt main_v9 main_v10
  let main_c_3 : IVec S_ 1 := constantI S_ 1 1#1
  let main_v12 : IVec S_ 1 := (fun x v => Host.reduce IntOp.andi x v reducesTo_S256x256_S_d0_1 h_S_) main_v11 main_c_3
  let main_v13 : IVec S_ 1 := andi main_v8 main_v12
  let main_v14 : FVec F S16x256 .f32 := Host.absf main_arg3
  let main_cst_4 : FVec F S_ .f32 := constant S_ .f32 0x7F800000#32
  let main_v15 : FVec F S16x256 .f32 := broadcastInDim S16x256 ![] bcast_S_S16x256 main_cst_4
  let main_v16 : IVec S16x256 1 := cmpf .olt main_v14 main_v15
  fn_part1 (F := F) main_v13 main_v16
-- ==== Kernel.lean ====
abbrev S256x32768 : Shape := ⟨2, ![256, 32768]⟩
abbrev S256x256 : Shape := ⟨2, ![256, 256]⟩
abbrev S16x256 : Shape := ⟨2, ![16, 256]⟩
abbrev S_ : Shape := ⟨0, ![]⟩
abbrev S256 : Shape := ⟨1, ![256]⟩
abbrev S256x1 : Shape := ⟨2, ![256, 1]⟩
abbrev S1x256 : Shape := ⟨2, ![1, 256]⟩
abbrev S256x2048 : Shape := ⟨2, ![256, 2048]⟩

abbrev nBuf : Space → Nat
  | .hbm => 119
  | .vmem => 10
  | .smem => 0
  | _ => 0

abbrev bufTy : (tb : Table) → Fin (tcTables nBuf tb) → BufTy
  | .hbm, ⟨0, _⟩ => ⟨S256x32768, .f32⟩
  | .hbm, ⟨1, _⟩ => ⟨S256x256, .f32⟩
  | .hbm, ⟨2, _⟩ => ⟨S256x256, .f32⟩
  | .hbm, ⟨3, _⟩ => ⟨S16x256, .f32⟩
  | .hbm, ⟨4, _⟩ => ⟨S_, .f32⟩
  | .hbm, ⟨5, _⟩ => ⟨S256, .f32⟩
  | .hbm, ⟨6, _⟩ => ⟨S_, .f32⟩
  | .hbm, ⟨7, _⟩ => ⟨S256, .f32⟩
  | .hbm, ⟨8, _⟩ => ⟨S256, .f32⟩
  | .hbm, ⟨9, _⟩ => ⟨S256x1, .f32⟩
  | .hbm, ⟨10, _⟩ => ⟨S256x256, .f32⟩
  | .hbm, ⟨11, _⟩ => ⟨S256x256, .f32⟩
  | .hbm, ⟨12, _⟩ => ⟨S256x256, .f32⟩
  | .hbm, ⟨13, _⟩ => ⟨S_, .f32⟩
  | .hbm, ⟨14, _⟩ => ⟨S256, .f32⟩
  | .hbm, ⟨15, _⟩ => ⟨S256x1, .f32⟩
  | .hbm, ⟨16, _⟩ => ⟨S256x256, .f32⟩
  | .hbm, ⟨17, _⟩ => ⟨S256x256, .f32⟩
  | .hbm, ⟨18, _⟩ => ⟨S_, .f32⟩
  | .hbm, ⟨19, _⟩ => ⟨S256, .f32⟩
  | .hbm, ⟨20, _⟩ => ⟨S_, .f32⟩
  | .hbm, ⟨21, _⟩ => ⟨S256, .f32⟩
  | .hbm, ⟨22, _⟩ => ⟨S256, .f32⟩
  | .hbm, ⟨23, _⟩ => ⟨S256x1, .f32⟩
  | .hbm, ⟨24, _⟩ => ⟨S256x256, .f32⟩
  | .hbm, ⟨25, _⟩ => ⟨S256x256, .f32⟩
  | .hbm, ⟨26, _⟩ => ⟨S256x256, .f32⟩
  | .hbm, ⟨27, _⟩ => ⟨S_, .f32⟩
  | .hbm, ⟨28, _⟩ => ⟨S256, .f32⟩
  | .hbm, ⟨29, _⟩ => ⟨S256x1, .f32⟩
  | .hbm, ⟨30, _⟩ => ⟨S256x256, .f32⟩
  | .hbm, ⟨31, _⟩ => ⟨S256x256, .f32⟩
  | .hbm, ⟨32, _⟩ => ⟨S_, .f32⟩
  | .hbm, ⟨33, _⟩ => ⟨S256, .f32⟩
  | .hbm, ⟨34, _⟩ => ⟨S_, .f32⟩
  | .hbm, ⟨35, _⟩ => ⟨S256, .f32⟩
  | .hbm, ⟨36, _⟩ => ⟨S256, .f32⟩
  | .hbm, ⟨37, _⟩ => ⟨S1x256, .f32⟩
  | .hbm, ⟨38, _⟩ => ⟨S16x256, .f32⟩
  | .hbm, ⟨39, _⟩ => ⟨S16x256, .f32⟩
  | .hbm, ⟨40, _⟩ => ⟨S16x256, .f32⟩
  | .hbm, ⟨41, _⟩ => ⟨S_, .f32⟩
  | .hbm, ⟨42, _⟩ => ⟨S256, .f32⟩
  | .hbm, ⟨43, _⟩ => ⟨S1x256, .f32⟩
  | .hbm, ⟨44, _⟩ => ⟨S16x256, .f32⟩
  | .hbm, ⟨45, _⟩ => ⟨S16x256, .f32⟩
  | .hbm, ⟨46, _⟩ => ⟨S1x256, .f32⟩
  | .hbm, ⟨47, _⟩ => ⟨S256, .f32⟩
  | .hbm, ⟨48, _⟩ => ⟨S1x256, .f32⟩
  | .hbm, ⟨49, _⟩ => ⟨S256, .f32⟩
  | .hbm, ⟨50, _⟩ => ⟨S1x256, .f32⟩
  | .hbm, ⟨51, _⟩ => ⟨S256, .f32⟩
  | .hbm, ⟨52, _⟩ => ⟨S1x256, .f32⟩
  | .hbm, ⟨53, _⟩ => ⟨S256, .f32⟩
  | .hbm, ⟨54, _⟩ => ⟨S1x256, .f32⟩
  | .hbm, ⟨55, _⟩ => ⟨S256, .f32⟩
  | .hbm, ⟨56, _⟩ => ⟨S1x256, .f32⟩
  | .hbm, ⟨57, _⟩ => ⟨S256, .f32⟩
  | .hbm, ⟨58, _⟩ => ⟨S1x256, .f32⟩
  | .hbm, ⟨59, _⟩ => ⟨S256, .f32⟩
  | .hbm, ⟨60, _⟩ => ⟨S1x256, .f32⟩
  | .hbm, ⟨61, _⟩ => ⟨S256, .f32⟩
  | .hbm, ⟨62, _⟩ => ⟨S1x256, .f32⟩
  | .hbm, ⟨63, _⟩ => ⟨S256, .f32⟩
  | .hbm, ⟨64, _⟩ => ⟨S1x256, .f32⟩
  | .hbm, ⟨65, _⟩ => ⟨S256, .f32⟩
  | .hbm, ⟨66, _⟩ => ⟨S1x256, .f32⟩
  | .hbm, ⟨67, _⟩ => ⟨S256, .f32⟩
  | .hbm, ⟨68, _⟩ => ⟨S1x256, .f32⟩
  | .hbm, ⟨69, _⟩ => ⟨S256, .f32⟩
  | .hbm, ⟨70, _⟩ => ⟨S1x256, .f32⟩
  | .hbm, ⟨71, _⟩ => ⟨S256, .f32⟩
  | .hbm, ⟨72, _⟩ => ⟨S1x256, .f32⟩
  | .hbm, ⟨73, _⟩ => ⟨S256, .f32⟩
  | .hbm, ⟨74, _⟩ => ⟨S1x256, .f32⟩
  | .hbm, ⟨75, _⟩ => ⟨S256, .f32⟩
  | .hbm, ⟨76, _⟩ => ⟨S1x256, .f32⟩
  | .hbm, ⟨77, _⟩ => ⟨S256, .f32⟩
  | .hbm, ⟨78, _⟩ => ⟨S256, .f32⟩
  | .hbm, ⟨79, _⟩ => ⟨S256, .f32⟩
  | .hbm, ⟨80, _⟩ => ⟨S256, .f32⟩
  | .hbm, ⟨81, _⟩ => ⟨S256, .f32⟩
  | .hbm, ⟨82, _⟩ => ⟨S256, .f32⟩
  | .hbm, ⟨83, _⟩ => ⟨S256, .f32⟩
  | .hbm, ⟨84, _⟩ => ⟨S256, .f32⟩
  | .hbm, ⟨85, _⟩ => ⟨S256, .f32⟩
  | .hbm, ⟨86, _⟩ => ⟨S256, .f32⟩
  | .hbm, ⟨87, _⟩ => ⟨S256, .f32⟩
  | .hbm, ⟨88, _⟩ => ⟨S256, .f32⟩
  | .hbm, ⟨89, _⟩ => ⟨S256, .f32⟩
  | .hbm, ⟨90, _⟩ => ⟨S256, .f32⟩
  | .hbm, ⟨91, _⟩ => ⟨S256, .f32⟩
  | .hbm, ⟨92, _⟩ => ⟨S256, .f32⟩
  | .hbm, ⟨93, _⟩ => ⟨S256, .f32⟩
  | .hbm, ⟨94, _⟩ => ⟨S256, .f32⟩
  | .hbm, ⟨95, _⟩ => ⟨S256, .f32⟩
  | .hbm, ⟨96, _⟩ => ⟨S256, .f32⟩
  | .hbm, ⟨97, _⟩ => ⟨S256, .f32⟩
  | .hbm, ⟨98, _⟩ => ⟨S256, .f32⟩
  | .hbm, ⟨99, _⟩ => ⟨S256, .f32⟩
  | .hbm, ⟨100, _⟩ => ⟨S256, .f32⟩
  | .hbm, ⟨101, _⟩ => ⟨S_, .f32⟩
  | .hbm, ⟨102, _⟩ => ⟨S256, .f32⟩
  | .hbm, ⟨103, _⟩ => ⟨S256, .f32⟩
  | .hbm, ⟨104, _⟩ => ⟨S256, .f32⟩
  | .hbm, ⟨105, _⟩ => ⟨S256, .f32⟩
  | .hbm, ⟨106, _⟩ => ⟨S256, .f32⟩
  | .hbm, ⟨107, _⟩ => ⟨S_, .f32⟩
  | .hbm, ⟨108, _⟩ => ⟨S256, .f32⟩
  | .hbm, ⟨109, _⟩ => ⟨S256, .f32⟩
  | .hbm, ⟨110, _⟩ => ⟨S256, .f32⟩
  | .hbm, ⟨111, _⟩ => ⟨S256, .f32⟩
  | .hbm, ⟨112, _⟩ => ⟨S256, .f32⟩
  | .hbm, ⟨113, _⟩ => ⟨S256, .f32⟩
  | .hbm, ⟨114, _⟩ => ⟨S256x1, .f32⟩
  | .hbm, ⟨115, _⟩ => ⟨S256x1, .f32⟩
  | .hbm, ⟨116, _⟩ => ⟨S256x1, .f32⟩
  | .hbm, ⟨117, _⟩ => ⟨S256x1, .f32⟩
  | .hbm, ⟨118, _⟩ => ⟨S256x32768, .f32⟩
  | .local _ .vmem, ⟨0, _⟩ => ⟨S256x256, .f32⟩
  | .local _ .vmem, ⟨1, _⟩ => ⟨S256x256, .f32⟩
  | .local _ .vmem, ⟨2, _⟩ => ⟨S256x2048, .f32⟩
  | .local _ .vmem, ⟨3, _⟩ => ⟨S256x2048, .f32⟩
  | .local _ .vmem, ⟨4, _⟩ => ⟨S256x1, .f32⟩
  | .local _ .vmem, ⟨5, _⟩ => ⟨S256x1, .f32⟩
  | .local _ .vmem, ⟨6, _⟩ => ⟨S256x1, .f32⟩
  | .local _ .vmem, ⟨7, _⟩ => ⟨S256x1, .f32⟩
  | .local _ .vmem, ⟨8, _⟩ => ⟨S256x2048, .f32⟩
  | .local _ .vmem, ⟨9, _⟩ => ⟨S256x2048, .f32⟩
  | _, _ => ⟨S256x32768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_cst_0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst_1 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_cst_2 : Ref sig .tc := ⟨.hbm, 18, rfl⟩
abbrev main_v11 : Ref sig .tc := ⟨.hbm, 19, rfl⟩
abbrev main_cst_3 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_cst_4 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_cst_5 : Ref sig .tc := ⟨.hbm, 32, rfl⟩
abbrev main_v22 : Ref sig .tc := ⟨.hbm, 33, rfl⟩
abbrev main_cst_6 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_cst_7 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_v46 : Ref sig .tc := ⟨.hbm, 59, rfl⟩
abbrev main_v47 : Ref sig .tc := ⟨.hbm, 60, rfl⟩
abbrev main_v48 : Ref sig .tc := ⟨.hbm, 61, rfl⟩
abbrev main_v49 : Ref sig .tc := ⟨.hbm, 62, rfl⟩
abbrev main_v50 : Ref sig .tc := ⟨.hbm, 63, rfl⟩
abbrev main_v51 : Ref sig .tc := ⟨.hbm, 64, rfl⟩
abbrev main_v52 : Ref sig .tc := ⟨.hbm, 65, rfl⟩
abbrev main_v53 : Ref sig .tc := ⟨.hbm, 66, rfl⟩
abbrev main_v54 : Ref sig .tc := ⟨.hbm, 67, rfl⟩
abbrev main_v55 : Ref sig .tc := ⟨.hbm, 68, rfl⟩
abbrev main_v56 : Ref sig .tc := ⟨.hbm, 69, rfl⟩
abbrev main_v57 : Ref sig .tc := ⟨.hbm, 70, rfl⟩
abbrev main_v58 : Ref sig .tc := ⟨.hbm, 71, rfl⟩
abbrev main_v59 : Ref sig .tc := ⟨.hbm, 72, rfl⟩
abbrev main_v60 : Ref sig .tc := ⟨.hbm, 73, rfl⟩
abbrev main_v61 : Ref sig .tc := ⟨.hbm, 74, rfl⟩
abbrev main_v62 : Ref sig .tc := ⟨.hbm, 75, rfl⟩
abbrev main_v63 : Ref sig .tc := ⟨.hbm, 76, rfl⟩
abbrev main_v64 : Ref sig .tc := ⟨.hbm, 77, rfl⟩
abbrev main_v65 : Ref sig .tc := ⟨.hbm, 78, rfl⟩
abbrev main_v66 : Ref sig .tc := ⟨.hbm, 79, rfl⟩
abbrev main_v67 : Ref sig .tc := ⟨.hbm, 80, rfl⟩
abbrev main_v68 : Ref sig .tc := ⟨.hbm, 81, rfl⟩
abbrev main_v69 : Ref sig .tc := ⟨.hbm, 82, rfl⟩
abbrev main_v70 : Ref sig .tc := ⟨.hbm, 83, rfl⟩
abbrev main_v71 : Ref sig .tc := ⟨.hbm, 84, rfl⟩
abbrev main_v72 : Ref sig .tc := ⟨.hbm, 85, rfl⟩
abbrev main_v73 : Ref sig .tc := ⟨.hbm, 86, rfl⟩
abbrev main_v74 : Ref sig .tc := ⟨.hbm, 87, rfl⟩
abbrev main_v75 : Ref sig .tc := ⟨.hbm, 88, rfl⟩
abbrev main_v76 : Ref sig .tc := ⟨.hbm, 89, rfl⟩
abbrev main_v77 : Ref sig .tc := ⟨.hbm, 90, rfl⟩
abbrev main_v78 : Ref sig .tc := ⟨.hbm, 91, rfl⟩
abbrev main_v79 : Ref sig .tc := ⟨.hbm, 92, rfl⟩
abbrev main_v80 : Ref sig .tc := ⟨.hbm, 93, rfl⟩
abbrev main_v81 : Ref sig .tc := ⟨.hbm, 94, rfl⟩
abbrev main_v82 : Ref sig .tc := ⟨.hbm, 95, rfl⟩
abbrev main_v83 : Ref sig .tc := ⟨.hbm, 96, rfl⟩
abbrev main_v84 : Ref sig .tc := ⟨.hbm, 97, rfl⟩
abbrev main_v85 : Ref sig .tc := ⟨.hbm, 98, rfl⟩
abbrev main_v86 : Ref sig .tc := ⟨.hbm, 99, rfl⟩
abbrev main_v87 : Ref sig .tc := ⟨.hbm, 100, rfl⟩
abbrev main_cst_8 : Ref sig .tc := ⟨.hbm, 101, rfl⟩
abbrev main_v88 : Ref sig .tc := ⟨.hbm, 102, rfl⟩
abbrev main_v89 : Ref sig .tc := ⟨.hbm, 103, rfl⟩
abbrev main_v90 : Ref sig .tc := ⟨.hbm, 104, rfl⟩
abbrev main_v91 : Ref sig .tc := ⟨.hbm, 105, rfl⟩
abbrev main_v92 : Ref sig .tc := ⟨.hbm, 106, rfl⟩
abbrev main_cst_9 : Ref sig .tc := ⟨.hbm, 107, rfl⟩
abbrev main_v93 : Ref sig .tc := ⟨.hbm, 108, rfl⟩
abbrev main_v94 : Ref sig .tc := ⟨.hbm, 109, rfl⟩
abbrev main_v95 : Ref sig .tc := ⟨.hbm, 110, rfl⟩
abbrev main_v96 : Ref sig .tc := ⟨.hbm, 111, rfl⟩
abbrev main_v97 : Ref sig .tc := ⟨.hbm, 112, rfl⟩
abbrev main_v98 : Ref sig .tc := ⟨.hbm, 113, rfl⟩
abbrev main_v99 : Ref sig .tc := ⟨.hbm, 114, rfl⟩
abbrev main_v100 : Ref sig .tc := ⟨.hbm, 115, rfl⟩
abbrev main_v101 : Ref sig .tc := ⟨.hbm, 116, rfl⟩
abbrev main_v102 : Ref sig .tc := ⟨.hbm, 117, rfl⟩
abbrev main_v103 : Ref sig .tc := ⟨.hbm, 118, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg7_1 : Ref sig .tc := ⟨.vmem, 9, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem7_1 : DmaSem sig := 9

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S256x256 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S256x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S256x1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S256x1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S256x1 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S256x1 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S256x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

class Facts₀ : Prop where
  reducesTo_S256x256_S256_d1 : S256x256.ReducesTo [1] S256
  h_S_ : 0 < S_.numel
  bcast_S_S256 : S_.BroadcastsInDim S256 (![] : Fin 0 → Fin S256.rank)
  bcast_S256_S256x1_0 : S256.BroadcastsInDim S256x1 (![0] : Fin 1 → Fin S256x1.rank)
  bcast_S256x1_S256x256_0_1 : S256x1.BroadcastsInDim S256x256 (![0, 1] : Fin 2 → Fin S256x256.rank)
  reducesTo_S16x256_S256_d0 : S16x256.ReducesTo [0] S256
  bcast_S256_S1x256_1 : S256.BroadcastsInDim S1x256 (![1] : Fin 1 → Fin S1x256.rank)
  bcast_S1x256_S16x256_0_1 : S1x256.BroadcastsInDim S16x256 (![0, 1] : Fin 2 → Fin S16x256.rank)
  slices_S16x256_S1x256_0_0 : S16x256.Slices ![0, 0] S1x256
  shapeCasts_S1x256_S256 : S1x256.ShapeCasts S256
  slices_S16x256_S1x256_1_0 : S16x256.Slices ![1, 0] S1x256
  slices_S16x256_S1x256_2_0 : S16x256.Slices ![2, 0] S1x256
  slices_S16x256_S1x256_3_0 : S16x256.Slices ![3, 0] S1x256
  slices_S16x256_S1x256_4_0 : S16x256.Slices ![4, 0] S1x256
  slices_S16x256_S1x256_5_0 : S16x256.Slices ![5, 0] S1x256
  slices_S16x256_S1x256_6_0 : S16x256.Slices ![6, 0] S1x256
  slices_S16x256_S1x256_7_0 : S16x256.Slices ![7, 0] S1x256
  slices_S16x256_S1x256_8_0 : S16x256.Slices ![8, 0] S1x256
  slices_S16x256_S1x256_9_0 : S16x256.Slices ![9, 0] S1x256
  slices_S16x256_S1x256_10_0 : S16x256.Slices ![10, 0] S1x256
  slices_S16x256_S1x256_11_0 : S16x256.Slices ![11, 0] S1x256
  slices_S16x256_S1x256_12_0 : S16x256.Slices ![12, 0] S1x256
  slices_S16x256_S1x256_13_0 : S16x256.Slices ![13, 0] S1x256
  slices_S16x256_S1x256_14_0 : S16x256.Slices ![14, 0] S1x256
  slices_S16x256_S1x256_15_0 : S16x256.Slices ![15, 0] S1x256
  shapeCasts_S256_S256x1 : S256.ShapeCasts S256x1
  inb_S256x256_S256x256_0_0 : ∀ a, (![0, 0] : Fin 2 → Nat) a + S256x256.size a ≤ S256x256.size a
  h_S256x256 : 0 < S256x256.numel
  shapeCasts_S256x256_S256x256 : S256x256.ShapeCasts S256x256
  bitsLt_bf16_f32 : FTy.bits .bf16 < FTy.bits .f32
  inb_S256x2048_S256x2048_0_0 : ∀ a, (![0, 0] : Fin 2 → Nat) a + S256x2048.size a ≤ S256x2048.size a
  h_S256x2048 : 0 < S256x2048.numel
  inb_S256x1_S256x1_0_0 : ∀ a, (![0, 0] : Fin 2 → Nat) a + S256x1.size a ≤ S256x1.size a
  h_S256x1 : 0 < S256x1.numel
  shapeCasts_S256x1_S256x1 : S256x1.ShapeCasts S256x1
  broadcasts_S256x1_S256x2048 : S256x1.Broadcasts S256x2048
  dot_S256x256_S256x2048_S256x2048_1_0_0_1_n_n_wf : DotDims.WF S256x256 S256x2048 S256x2048 [1] [0] [0] [1] [] []
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S256x256.size a ≤ S256x256.size a
  hwx0_0 : ∀ i : grid0.Coords, EltTy.bits .f32 = 32 ∨ (Rect.block (s := S256x256) S256x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x256.size a ≤ S256x256.size a
  hwx0_1 : ∀ i : grid0.Coords, EltTy.bits .f32 = 32 ∨ (Rect.block (s := S256x256) S256x256.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S256x2048.size a ≤ S256x32768.size a
  hwx0_2 : ∀ i : grid0.Coords, EltTy.bits .f32 = 32 ∨ (Rect.block (s := S256x32768) S256x2048.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S256x1.size a ≤ S256x1.size a
  hwx0_3 : ∀ i : grid0.Coords, EltTy.bits .f32 = 32 ∨ (Rect.block (s := S256x1) S256x1.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S256x1.size a ≤ S256x1.size a
  hwx0_4 : ∀ i : grid0.Coords, EltTy.bits .f32 = 32 ∨ (Rect.block (s := S256x1) S256x1.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S256x1.size a ≤ S256x1.size a
  hwx0_5 : ∀ i : grid0.Coords, EltTy.bits .f32 = 32 ∨ (Rect.block (s := S256x1) S256x1.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S256x1.size a ≤ S256x1.size a
  hwx0_6 : ∀ i : grid0.Coords, EltTy.bits .f32 = 32 ∨ (Rect.block (s := S256x1) S256x1.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S256x2048.size a ≤ S256x32768.size a
  hwx0_7 : ∀ i : grid0.Coords, EltTy.bits .f32 = 32 ∨ (Rect.block (s := S256x32768) S256x2048.size (cc0_transform_7 i) (hinb0_7 i)).WholeWords (EltTy.packing .f32)

variable [Facts₀]

def dot_S256x256_S256x2048_S256x2048_1_0_0_1_n_n : DotDims S256x256 S256x2048 S256x2048 where
  lhsContracting := [1]
  rhsContracting := [0]
  lhsNonContracting := [0]
  rhsNonContracting := [1]
  lhsBatch := []
  rhsBatch := []
  wf := dot_S256x256_S256x2048_S256x2048_1_0_0_1_n_n_wf

abbrev win0_0 : Pipeline.Window sig grid0 :=
  Pipeline.Window.ofSpec (Memref.whole main_v10) S256x256.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_v21) S256x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg0) S256x2048.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v99) S256x1.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v100) S256x1.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v101) S256x1.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v102) S256x1.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v103) S256x2048.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

class Facts : Prop extends Facts₀ where

variable [Facts]
-- ==== ReferenceIdeal.lean ====
abbrev S256x32768 : Shape := ⟨2, ![256, 32768]⟩
abbrev S256x256 : Shape := ⟨2, ![256, 256]⟩
abbrev S16x256 : Shape := ⟨2, ![16, 256]⟩
abbrev S_ : Shape := ⟨0, ![]⟩
abbrev S256 : Shape := ⟨1, ![256]⟩
abbrev S256x1 : Shape := ⟨2, ![256, 1]⟩
abbrev S1x256 : Shape := ⟨2, ![1, 256]⟩
abbrev S1x256x32768 : Shape := ⟨3, ![1, 256, 32768]⟩
abbrev S16x256x32768 : Shape := ⟨3, ![16, 256, 32768]⟩
abbrev S16x256x1 : Shape := ⟨3, ![16, 256, 1]⟩

abbrev nBuf : Space → Nat
  | .hbm => 107
  | .vmem => 0
  | .smem => 0
  | _ => 0

abbrev bufTy : (tb : Table) → Fin (tcTables nBuf tb) → BufTy
  | .hbm, ⟨0, _⟩ => ⟨S256x32768, .f32⟩
  | .hbm, ⟨1, _⟩ => ⟨S256x256, .f32⟩
  | .hbm, ⟨2, _⟩ => ⟨S256x256, .f32⟩
  | .hbm, ⟨3, _⟩ => ⟨S16x256, .f32⟩
  | .hbm, ⟨4, _⟩ => ⟨S_, .f32⟩
  | .hbm, ⟨5, _⟩ => ⟨S256, .f32⟩
  | .hbm, ⟨6, _⟩ => ⟨S_, .f32⟩
  | .hbm, ⟨7, _⟩ => ⟨S256, .f32⟩
  | .hbm, ⟨8, _⟩ => ⟨S256, .f32⟩
  | .hbm, ⟨9, _⟩ => ⟨S256x1, .f32⟩
  | .hbm, ⟨10, _⟩ => ⟨S256x256, .f32⟩
  | .hbm, ⟨11, _⟩ => ⟨S256x256, .f32⟩
  | .hbm, ⟨12, _⟩ => ⟨S256x256, .f32⟩
  | .hbm, ⟨13, _⟩ => ⟨S_, .f32⟩
  | .hbm, ⟨14, _⟩ => ⟨S256, .f32⟩
  | .hbm, ⟨15, _⟩ => ⟨S256x1, .f32⟩
  | .hbm, ⟨16, _⟩ => ⟨S256x256, .f32⟩
  | .hbm, ⟨17, _⟩ => ⟨S256x256, .f32⟩
  | .hbm, ⟨18, _⟩ => ⟨S_, .f32⟩
  | .hbm, ⟨19, _⟩ => ⟨S256, .f32⟩
  | .hbm, ⟨20, _⟩ => ⟨S_, .f32⟩
  | .hbm, ⟨21, _⟩ => ⟨S256, .f32⟩
  | .hbm, ⟨22, _⟩ => ⟨S256, .f32⟩
  | .hbm, ⟨23, _⟩ => ⟨S256x1, .f32⟩
  | .hbm, ⟨24, _⟩ => ⟨S256x256, .f32⟩
  | .hbm, ⟨25, _⟩ => ⟨S256x256, .f32⟩
  | .hbm, ⟨26, _⟩ => ⟨S256x256, .f32⟩
  | .hbm, ⟨27, _⟩ => ⟨S_, .f32⟩
  | .hbm, ⟨28, _⟩ => ⟨S256, .f32⟩
  | .hbm, ⟨29, _⟩ => ⟨S256x1, .f32⟩
  | .hbm, ⟨30, _⟩ => ⟨S256x256, .f32⟩
  | .hbm, ⟨31, _⟩ => ⟨S256x256, .f32⟩
  | .hbm, ⟨32, _⟩ => ⟨S_, .f32⟩
  | .hbm, ⟨33, _⟩ => ⟨S256, .f32⟩
  | .hbm, ⟨34, _⟩ => ⟨S_, .f32⟩
  | .hbm, ⟨35, _⟩ => ⟨S256, .f32⟩
  | .hbm, ⟨36, _⟩ => ⟨S256, .f32⟩
  | .hbm, ⟨37, _⟩ => ⟨S1x256, .f32⟩
  | .hbm, ⟨38, _⟩ => ⟨S16x256, .f32⟩
  | .hbm, ⟨39, _⟩ => ⟨S16x256, .f32⟩
  | .hbm, ⟨40, _⟩ => ⟨S16x256, .f32⟩
  | .hbm, ⟨41, _⟩ => ⟨S_, .f32⟩
  | .hbm, ⟨42, _⟩ => ⟨S256, .f32⟩
  | .hbm, ⟨43, _⟩ => ⟨S1x256, .f32⟩
  | .hbm, ⟨44, _⟩ => ⟨S16x256, .f32⟩
  | .hbm, ⟨45, _⟩ => ⟨S16x256, .f32⟩
  | .hbm, ⟨46, _⟩ => ⟨S256x32768, .f32⟩
  | .hbm, ⟨47, _⟩ => ⟨S256x32768, .f32⟩
  | .hbm, ⟨48, _⟩ => ⟨S256x32768, .f32⟩
  | .hbm, ⟨49, _⟩ => ⟨S256x32768, .f32⟩
  | .hbm, ⟨50, _⟩ => ⟨S256x32768, .f32⟩
  | .hbm, ⟨51, _⟩ => ⟨S256x32768, .f32⟩
  | .hbm, ⟨52, _⟩ => ⟨S_, .f32⟩
  | .hbm, ⟨53, _⟩ => ⟨S256x32768, .f32⟩
  | .hbm, ⟨54, _⟩ => ⟨S256x32768, .f32⟩
  | .hbm, ⟨55, _⟩ => ⟨S256x32768, .f32⟩
  | .hbm, ⟨56, _⟩ => ⟨S_, .f32⟩
  | .hbm, ⟨57, _⟩ => ⟨S256x32768, .f32⟩
  | .hbm, ⟨58, _⟩ => ⟨S_, .f32⟩
  | .hbm, ⟨59, _⟩ => ⟨S256x32768, .f32⟩
  | .hbm, ⟨60, _⟩ => ⟨S256x32768, .f32⟩
  | .hbm, ⟨61, _⟩ => ⟨S256x32768, .f32⟩
  | .hbm, ⟨62, _⟩ => ⟨S_, .f32⟩
  | .hbm, ⟨63, _⟩ => ⟨S256x32768, .f32⟩
  | .hbm, ⟨64, _⟩ => ⟨S256x32768, .f32⟩
  | .hbm, ⟨65, _⟩ => ⟨S_, .f32⟩
  | .hbm, ⟨66, _⟩ => ⟨S256x32768, .f32⟩
  | .hbm, ⟨67, _⟩ => ⟨S256x32768, .f32⟩
  | .hbm, ⟨68, _⟩ => ⟨S_, .f32⟩
  | .hbm, ⟨69, _⟩ => ⟨S256x32768, .f32⟩
  | .hbm, ⟨70, _⟩ => ⟨S256x32768, .f32⟩
  | .hbm, ⟨71, _⟩ => ⟨S_, .f32⟩
  | .hbm, ⟨72, _⟩ => ⟨S256x32768, .f32⟩
  | .hbm, ⟨73, _⟩ => ⟨S256x32768, .f32⟩
  | .hbm, ⟨74, _⟩ => ⟨S256x32768, .f32⟩
  | .hbm, ⟨75, _⟩ => ⟨S_, .f32⟩
  | .hbm, ⟨76, _⟩ => ⟨S256x32768, .f32⟩
  | .hbm, ⟨77, _⟩ => ⟨S256x32768, .f32⟩
  | .hbm, ⟨78, _⟩ => ⟨S_, .f32⟩
  | .hbm, ⟨79, _⟩ => ⟨S256x32768, .f32⟩
  | .hbm, ⟨80, _⟩ => ⟨S256x32768, .f32⟩
  | .hbm, ⟨81, _⟩ => ⟨S256x32768, .f32⟩
  | .hbm, ⟨82, _⟩ => ⟨S_, .f32⟩
  | .hbm, ⟨83, _⟩ => ⟨S256x32768, .f32⟩
  | .hbm, ⟨84, _⟩ => ⟨S256x32768, .f32⟩
  | .hbm, ⟨85, _⟩ => ⟨S1x256x32768, .f32⟩
  | .hbm, ⟨86, _⟩ => ⟨S1x256x32768, .f32⟩
  | .hbm, ⟨87, _⟩ => ⟨S1x256x32768, .f32⟩
  | .hbm, ⟨88, _⟩ => ⟨S1x256x32768, .f32⟩
  | .hbm, ⟨89, _⟩ => ⟨S1x256x32768, .f32⟩
  | .hbm, ⟨90, _⟩ => ⟨S1x256x32768, .f32⟩
  | .hbm, ⟨91, _⟩ => ⟨S1x256x32768, .f32⟩
  | .hbm, ⟨92, _⟩ => ⟨S1x256x32768, .f32⟩
  | .hbm, ⟨93, _⟩ => ⟨S1x256x32768, .f32⟩
  | .hbm, ⟨94, _⟩ => ⟨S1x256x32768, .f32⟩
  | .hbm, ⟨95, _⟩ => ⟨S1x256x32768, .f32⟩
  | .hbm, ⟨96, _⟩ => ⟨S1x256x32768, .f32⟩
  | .hbm, ⟨97, _⟩ => ⟨S1x256x32768, .f32⟩
  | .hbm, ⟨98, _⟩ => ⟨S1x256x32768, .f32⟩
  | .hbm, ⟨99, _⟩ => ⟨S1x256x32768, .f32⟩
  | .hbm, ⟨100, _⟩ => ⟨S1x256x32768, .f32⟩
  | .hbm, ⟨101, _⟩ => ⟨S16x256x32768, .f32⟩
  | .hbm, ⟨102, _⟩ => ⟨S16x256x1, .f32⟩
  | .hbm, ⟨103, _⟩ => ⟨S16x256x32768, .f32⟩
  | .hbm, ⟨104, _⟩ => ⟨S16x256x32768, .f32⟩
  | .hbm, ⟨105, _⟩ => ⟨S_, .f32⟩
  | .hbm, ⟨106, _⟩ => ⟨S256x32768, .f32⟩
  | _, _ => ⟨S256x32768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_cst_0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst_1 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_cst_2 : Ref sig .tc := ⟨.hbm, 18, rfl⟩
abbrev main_v11 : Ref sig .tc := ⟨.hbm, 19, rfl⟩
abbrev main_cst_3 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_cst_4 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_cst_5 : Ref sig .tc := ⟨.hbm, 32, rfl⟩
abbrev main_v22 : Ref sig .tc := ⟨.hbm, 33, rfl⟩
abbrev main_cst_6 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_cst_7 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_cst_8 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_cst_9 : Ref sig .tc := ⟨.hbm, 56, rfl⟩
abbrev main_v42 : Ref sig .tc := ⟨.hbm, 57, rfl⟩
abbrev main_cst_10 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_cst_11 : Ref sig .tc := ⟨.hbm, 62, rfl⟩
abbrev main_v46 : Ref sig .tc := ⟨.hbm, 63, rfl⟩
abbrev main_v47 : Ref sig .tc := ⟨.hbm, 64, rfl⟩
abbrev main_cst_12 : Ref sig .tc := ⟨.hbm, 65, rfl⟩
abbrev main_v48 : Ref sig .tc := ⟨.hbm, 66, rfl⟩
abbrev main_v49 : Ref sig .tc := ⟨.hbm, 67, rfl⟩
abbrev main_cst_13 : Ref sig .tc := ⟨.hbm, 68, rfl⟩
abbrev main_v50 : Ref sig .tc := ⟨.hbm, 69, rfl⟩
abbrev main_v51 : Ref sig .tc := ⟨.hbm, 70, rfl⟩
abbrev main_cst_14 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩
abbrev main_cst_15 : Ref sig .tc := ⟨.hbm, 75, rfl⟩
abbrev main_v55 : Ref sig .tc := ⟨.hbm, 76, rfl⟩
abbrev main_v56 : Ref sig .tc := ⟨.hbm, 77, rfl⟩
abbrev main_cst_16 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_cst_17 : Ref sig .tc := ⟨.hbm, 82, rfl⟩
abbrev main_v60 : Ref sig .tc := ⟨.hbm, 83, rfl⟩
abbrev main_v61 : Ref sig .tc := ⟨.hbm, 84, rfl⟩
abbrev main_v62 : Ref sig .tc := ⟨.hbm, 85, rfl⟩
abbrev main_v63 : Ref sig .tc := ⟨.hbm, 86, rfl⟩
abbrev main_v64 : Ref sig .tc := ⟨.hbm, 87, rfl⟩
abbrev main_v65 : Ref sig .tc := ⟨.hbm, 88, rfl⟩
abbrev main_v66 : Ref sig .tc := ⟨.hbm, 89, rfl⟩
abbrev main_v67 : Ref sig .tc := ⟨.hbm, 90, rfl⟩
abbrev main_v68 : Ref sig .tc := ⟨.hbm, 91, rfl⟩
abbrev main_v69 : Ref sig .tc := ⟨.hbm, 92, rfl⟩
abbrev main_v70 : Ref sig .tc := ⟨.hbm, 93, rfl⟩
abbrev main_v71 : Ref sig .tc := ⟨.hbm, 94, rfl⟩
abbrev main_v72 : Ref sig .tc := ⟨.hbm, 95, rfl⟩
abbrev main_v73 : Ref sig .tc := ⟨.hbm, 96, rfl⟩
abbrev main_v74 : Ref sig .tc := ⟨.hbm, 97, rfl⟩
abbrev main_v75 : Ref sig .tc := ⟨.hbm, 98, rfl⟩
abbrev main_v76 : Ref sig .tc := ⟨.hbm, 99, rfl⟩
abbrev main_v77 : Ref sig .tc := ⟨.hbm, 100, rfl⟩
abbrev main_v78 : Ref sig .tc := ⟨.hbm, 101, rfl⟩
abbrev main_v79 : Ref sig .tc := ⟨.hbm, 102, rfl⟩
abbrev main_v80 : Ref sig .tc := ⟨.hbm, 103, rfl⟩
abbrev main_v81 : Ref sig .tc := ⟨.hbm, 104, rfl⟩
abbrev main_cst_18 : Ref sig .tc := ⟨.hbm, 105, rfl⟩
abbrev main_v82 : Ref sig .tc := ⟨.hbm, 106, rfl⟩

abbrev nD : Nat := 1
abbrev τ : Topo := Topo.v7x

variable {F : FTy → Type} [FloatOps F]

class Facts₀ : Prop where
  reducesTo_S256x256_S256_d1 : S256x256.ReducesTo [1] S256
  h_S_ : 0 < S_.numel
  bcast_S_S256 : S_.BroadcastsInDim S256 (![] : Fin 0 → Fin S256.rank)
  bcast_S256_S256x1_0 : S256.BroadcastsInDim S256x1 (![0] : Fin 1 → Fin S256x1.rank)
  bcast_S256x1_S256x256_0_1 : S256x1.BroadcastsInDim S256x256 (![0, 1] : Fin 2 → Fin S256x256.rank)
  reducesTo_S16x256_S256_d0 : S16x256.ReducesTo [0] S256
  bcast_S256_S1x256_1 : S256.BroadcastsInDim S1x256 (![1] : Fin 1 → Fin S1x256.rank)
  bcast_S1x256_S16x256_0_1 : S1x256.BroadcastsInDim S16x256 (![0, 1] : Fin 2 → Fin S16x256.rank)
  bcast_S_S256x32768 : S_.BroadcastsInDim S256x32768 (![] : Fin 0 → Fin S256x32768.rank)
  bcast_S256x32768_S1x256x32768_1_2 : S256x32768.BroadcastsInDim S1x256x32768 (![1, 2] : Fin 2 → Fin S1x256x32768.rank)
  concatenates_S1x256x32768_S1x256x32768_S1x256x32768_S1x256x32768_S1x256x32768_S1x256x32768_S1x256x32768_S1x256x32768_S1x256x32768_S1x256x32768_S1x256x32768_S1x256x32768_S1x256x32768_S1x256x32768_S1x256x32768_S1x256x32768_S16x256x32768_d0 : Shape.Concatenates [S1x256x32768, S1x256x32768, S1x256x32768, S1x256x32768, S1x256x32768, S1x256x32768, S1x256x32768, S1x256x32768, S1x256x32768, S1x256x32768, S1x256x32768, S1x256x32768, S1x256x32768, S1x256x32768, S1x256x32768, S1x256x32768] S16x256x32768 0
  bcast_S16x256_S16x256x1_0_1 : S16x256.BroadcastsInDim S16x256x1 (![0, 1] : Fin 2 → Fin S16x256x1.rank)
  bcast_S16x256x1_S16x256x32768_0_1_2 : S16x256x1.BroadcastsInDim S16x256x32768 (![0, 1, 2] : Fin 3 → Fin S16x256x32768.rank)
  reducesTo_S16x256x32768_S256x32768_d0 : S16x256x32768.ReducesTo [0] S256x32768
  dot_S256x256_S256x32768_S256x32768_1_0_0_1_n_n_wf : DotDims.WF S256x256 S256x32768 S256x32768 [1] [0] [0] [1] [] []

variable [Facts₀]

def dot_S256x256_S256x32768_S256x32768_1_0_0_1_n_n : DotDims S256x256 S256x32768 S256x32768 where
  lhsContracting := [1]
  rhsContracting := [0]
  lhsNonContracting := [0]
  rhsNonContracting := [1]
  lhsBatch := []
  rhsBatch := []
  wf := dot_S256x256_S256x32768_S256x32768_1_0_0_1_n_n_wf

class Facts : Prop extends Facts₀ where

variable [Facts]
-- ==== Proof.Spec.lean ====
/-
  The two arrangements of the sixteen-gate mix, as functions of two reals-to-be `A` and `B` and a family `p` of sixteen
  weights, on the extended reals; nothing here mentions a program.

  For inputs `A, B` the sixteen soft two-input gates are, in the order they are stacked,
    0, AB, A − AB, A, B − AB, B, (A+B) − 2·AB, (A+B) − AB, 1 − ((A+B) − AB), 1 − ((A+B) − 2·AB), 1 − B, (1 − B) + AB,
    1 − A, (1 − A) + AB, 1 − AB, 1,
  and the mix is `0 + ∑ k, gate k · p k` (`refMix`). Each gate is affine in `1, A, B, AB`, so collecting by basis term the
  mix is `c₀ + c_A · A + c_B · B + c_AB · (A·B)` with the four coefficients sums and differences of the weights
  (`kerMix`, the sums associated to the left in the order they are taken). `rowDot P X s b` is the entry
  `∑ k, P[s,k] · X[k,b]` of a matrix product, the form both `A` and `B` take.
-/
import Idealize.ShloMosaic.PureOps.Ideal
import Idealize.ShloMosaic.Lib.ValueIdx

noncomputable section

open scoped BigOperators

namespace Cert.Mix

open Idealize.ShloMosaic Idealize.ShloMosaic.ValueIdx

/-- The real two, as an extended real. -/
def two : EReal := ((2 : ℝ) : EReal)

/-- Gate `k` of the sixteen at the inputs `A`, `B`. -/
def gate (k : Fin 16) (A B : EReal) : EReal :=
  match k with
  | ⟨0, _⟩ => 0
  | ⟨1, _⟩ => A * B
  | ⟨2, _⟩ => A - A * B
  | ⟨3, _⟩ => A
  | ⟨4, _⟩ => B - A * B
  | ⟨5, _⟩ => B
  | ⟨6, _⟩ => (A + B) - two * (A * B)
  | ⟨7, _⟩ => (A + B) - A * B
  | ⟨8, _⟩ => 1 - ((A + B) - A * B)
  | ⟨9, _⟩ => 1 - ((A + B) - two * (A * B))
  | ⟨10, _⟩ => 1 - B
  | ⟨11, _⟩ => (1 - B) + A * B
  | ⟨12, _⟩ => 1 - A
  | ⟨13, _⟩ => (1 - A) + A * B
  | ⟨14, _⟩ => 1 - A * B
  | ⟨15, _⟩ => 1
  | ⟨_ + 16, h⟩ => absurd h (Nat.not_lt.2 (Nat.le_add_left _ _))

/-- The mix as the weighted sum of the sixteen gates, from zero. -/
def refMix (A B : EReal) (p : Fin 16 → EReal) : EReal := 0 + ∑ k : Fin 16, gate k A B * p k

/-- The constant coefficient: the weights of the gates that hold a `1`. -/
def cConst (p : Fin 16 → EReal) : EReal := p 8 + p 9 + p 10 + p 11 + p 12 + p 13 + p 14 + p 15
/-- The coefficient of `A`. -/
def cA (p : Fin 16 → EReal) : EReal := p 2 + p 3 + p 6 + p 7 - p 8 - p 9 - p 12 - p 13
/-- The coefficient of `B`. -/
def cB (p : Fin 16 → EReal) : EReal := p 4 + p 5 + p 6 + p 7 - p 8 - p 9 - p 10 - p 11
/-- The coefficient of `A · B`. -/
def cAB (p : Fin 16 → EReal) : EReal := p 1 - p 2 - p 4 - two * p 6 - p 7 + p 8 + two * p 9 + p 11 + p 13 - p 14

/-- The mix collected by basis term. -/
def kerMix (A B : EReal) (p : Fin 16 → EReal) : EReal := cConst p + cA p * A + cB p * B + cAB p * (A * B)

/-- Entry `(s, b)` of the product of a `[256, 256]` matrix with a `[256, 32768]` one. -/
def rowDot (P : (⟨2, ![256, 256]⟩ : Shape).Idx → EReal) (X : (⟨2, ![256, 32768]⟩ : Shape).Idx → EReal) (s : Fin 256) (b : Fin 32768) : EReal :=
  ∑ k : Fin 256, P (ix2 s k) * X (ix2 k b)

/-- An array of extended reals all of whose entries are real numbers. -/
def IsReal {S : Shape} (v : S.Idx → EReal) : Prop := ∀ i, ∃ r : ℝ, v i = (r : EReal)

end Cert.Mix

end
-- ==== Proof.LibKeepdims.lean ====
/-
  Layout operations of a `keepdims` row reduction read at an index given by coordinates — the column forms beside the
  library's row forms: a vector `[a]` cast to the column `[a, 1]`, a column `[a, 1]` broadcast along a new minor
  extent to `[a, b]`, and a lane sum of an `[a, b]` array over its minor axis read at a row as the sum over that row
  (at the exact instance, into the zero accumulator). General in the extents; nothing here mentions a program.
-/
import Idealize.ShloMosaic.Lib.ValueLayout
import Idealize.ShloMosaic.PureOps.Ideal.Laws

namespace Cert.LibKeepdims

open Idealize.ShloMosaic Idealize.ShloMosaic.ValueIdx

variable {α : Type}

/-- An `[a]` array cast to the column `[a, 1]` reads, at `(i, u)`, the operand at `i`, whatever the unit coordinate `u`:
    the two row-major positions are `i` and `i · 1 + 0`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the operand's entry of row `p`: the unit axis reads `0`,
    the row axis is kept (also when `a = 1`, where the only row is row `0`). -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- At the exact instance a float lane sum of an `[a, b]` array over its minor axis, into the zero accumulator, read at row
    `i` is the sum over the `b` entries of that row. (The accumulator's side condition is typed as a printed program
    carries it, an equation between the two zero words.) -/
theorem rowSum_apply {a b : ℕ} (src : FVec Ideal ⟨2, ![a, b]⟩ .f32) (h : (⟨2, ![a, b]⟩ : Shape).Reduces [1] ⟨1, ![a]⟩)
    (hφ : FKind.Formats .f32) (hacc : (0x00000000#32 : BitVec 32) = 0x00000000#32) (i : Fin a) :
    multiReduction .add [1] ⟨1, ![a]⟩ src 0x00000000#32 h hφ hacc (ix1 i) = ∑ d : Fin b, src (ix2 i d) :=
  (Ideal.multiReduction_add_single src 0x00000000#32 h hφ hacc (ix1 i)).trans
    (Finset.sum_congr rfl fun d _ => congrArg src (funext fun ax => Fin.ext (by
      match ax with
      | ⟨0, _⟩ => rfl
      | ⟨1, _⟩ => rfl)))

end Cert.LibKeepdims
-- ==== Proof.KernelPayload.lean ====
/-
  The kernel body's stored value read at one entry of its block. With `P`, `Q` the two [256, 256] operands, `x` the
  [256, 2048] block of the third, and `c₀, c_A, c_B, c_AB` the four [256, 1] coefficient columns, entry `(p, q)` of the
  stored block is `c₀[p] + c_A[p]·A + c_B[p]·B + c_AB[p]·(A·B)` with `A = ∑ k, P[p,k]·x[k,q]` and `B = ∑ k, Q[p,k]·x[k,q]`:
  at the exact instance a change of float format is the identity, a matrix product into the zero accumulator is the plain
  sum over the contracted axis, and a column broadcast along the minor axis reads its row's one entry.
-/
import proofs.«137839_j65429531787948_1_alg».proof.Proof.Gen.KernelIdeal.Skeleton
import proofs.«137839_j65429531787948_1_alg».proof.Proof.Spec
import proofs.«137839_j65429531787948_1_alg».proof.Proof.LibKeepdims
import Idealize.ShloMosaic.Lib.ValueLayout
import Idealize.ShloMosaic.PureOps.Ideal.Laws

noncomputable section

open scoped BigOperators

namespace Cert.KernelIdeal.MixValue

open Cert.KernelIdeal Cert.KernelIdeal.Gen Idealize.ShloMosaic Idealize.ShloMosaic.ValueIdx Cert.Mix

/-- The contraction's four coordinate facts: the left operand is read at (row of the result, contracted coordinate), the
    right at (contracted coordinate, column of the result). -/
theorem lhs_dot_0 (i : S256x2048.Idx) (q : dot_S256x256_S256x2048_S256x2048_1_0_0_1_n_n.contr.Idx) :
    (dot_S256x256_S256x2048_S256x2048_1_0_0_1_n_n.lhsIdx i q 0).val = (i 0).val := by
  unfold DotDims.lhsIdx
  rw [dif_neg (show ¬(0 : Fin S256x256.rank) ∈ dot_S256x256_S256x2048_S256x2048_1_0_0_1_n_n.lhsBatch by decide), dif_pos (show (0 : Fin S256x256.rank) ∈ dot_S256x256_S256x2048_S256x2048_1_0_0_1_n_n.lhsNonContracting by decide)]
  rfl
theorem lhs_dot_1 (i : S256x2048.Idx) (q : dot_S256x256_S256x2048_S256x2048_1_0_0_1_n_n.contr.Idx) :
    (dot_S256x256_S256x2048_S256x2048_1_0_0_1_n_n.lhsIdx i q 1).val = (q ⟨0, by decide⟩).val :=
  dot_S256x256_S256x2048_S256x2048_1_0_0_1_n_n.lhsIdx_val_of_single rfl i q
theorem rhs_dot_0 (i : S256x2048.Idx) (q : dot_S256x256_S256x2048_S256x2048_1_0_0_1_n_n.contr.Idx) :
    (dot_S256x256_S256x2048_S256x2048_1_0_0_1_n_n.rhsIdx i q 0).val = (q ⟨0, by decide⟩).val :=
  dot_S256x256_S256x2048_S256x2048_1_0_0_1_n_n.rhsIdx_val_of_single rfl i q
theorem rhs_dot_1 (i : S256x2048.Idx) (q : dot_S256x256_S256x2048_S256x2048_1_0_0_1_n_n.contr.Idx) :
    (dot_S256x256_S256x2048_S256x2048_1_0_0_1_n_n.rhsIdx i q 1).val = (i 1).val := by
  unfold DotDims.rhsIdx
  rw [dif_neg (show ¬(1 : Fin S256x2048.rank) ∈ dot_S256x256_S256x2048_S256x2048_1_0_0_1_n_n.rhsBatch by decide), dif_pos (show (1 : Fin S256x2048.rank) ∈ dot_S256x256_S256x2048_S256x2048_1_0_0_1_n_n.rhsNonContracting by decide)]
  rfl

/-- The block matrix product into the zero accumulator, at entry `(p, q)`: the sum over the 256 contracted coordinates. -/
theorem matmul_blk_apply (l : FVec Ideal S256x256 .bf16) (r : FVec Ideal S256x2048 .bf16) (p : Fin 256) (q : Fin 2048) :
    matmul dot_S256x256_S256x2048_S256x2048_1_0_0_1_n_n none l r (constant (F := Ideal) S256x2048 .f32 0x00000000#32) (ix2 p q)
      = ∑ k : Fin 256, l (ix2 p k) * r (ix2 k q) := by
  simp only [matmul]
  rw [Ideal.matmul_constant_zero_apply, ← Equiv.sum_comp (ValueIdx.contrEquiv1 dot_S256x256_S256x2048_S256x2048_1_0_0_1_n_n 256 rfl rfl).symm]
  refine Finset.sum_congr rfl fun k _ => ?_
  have hk := ValueIdx.contrEquiv1_symm_val dot_S256x256_S256x2048_S256x2048_1_0_0_1_n_n 256 rfl rfl k
  have el : dot_S256x256_S256x2048_S256x2048_1_0_0_1_n_n.lhsIdx (ix2 p q) ((ValueIdx.contrEquiv1 dot_S256x256_S256x2048_S256x2048_1_0_0_1_n_n 256 rfl rfl).symm k) = ix2 p k := funext fun a => Fin.ext (by
    match a with
    | ⟨0, _⟩ => exact lhs_dot_0 _ _
    | ⟨1, _⟩ => exact (lhs_dot_1 _ _).trans hk)
  have er : dot_S256x256_S256x2048_S256x2048_1_0_0_1_n_n.rhsIdx (ix2 p q) ((ValueIdx.contrEquiv1 dot_S256x256_S256x2048_S256x2048_1_0_0_1_n_n 256 rfl rfl).symm k) = ix2 k q := funext fun a => Fin.ext (by
    match a with
    | ⟨0, _⟩ => exact (rhs_dot_0 _ _).trans hk
    | ⟨1, _⟩ => exact rhs_dot_1 _ _)
  rw [el, er]

/-- The stored block at entry `(p, q)`. -/
theorem pay_apply (x0 x1 : Vec Ideal S256x256 .f32) (x2 : Vec Ideal S256x2048 .f32) (x3 x4 x5 x6 : Vec Ideal S256x1 .f32)
    (p : Fin 256) (q : Fin 2048) :
    k0_pay1 (F := Ideal) x0 x1 x2 x3 x4 x5 x6 (ix2 p q)
      = x3 (ix2 p (0 : Fin 1)) + x4 (ix2 p (0 : Fin 1)) * (∑ k : Fin 256, x0 (ix2 p k) * x2 (ix2 k q))
        + x5 (ix2 p (0 : Fin 1)) * (∑ k : Fin 256, x1 (ix2 p k) * x2 (ix2 k q))
        + x6 (ix2 p (0 : Fin 1)) * ((∑ k : Fin 256, x0 (ix2 p k) * x2 (ix2 k q)) * (∑ k : Fin 256, x1 (ix2 p k) * x2 (ix2 k q))) := by
  unfold k0_pay1
  simp only [shapeCast_self]
  simp only [addf_apply, mulf_apply, Cert.LibKeepdims.broadcastTo_a1_ab_apply, matmul_blk_apply]
  rfl

end Cert.KernelIdeal.MixValue

end
-- ==== Proof.KernelValue.lean ====
/-
  The kernel's result array after the run, as one function of the arrays the region finds. The grid has sixteen points;
  point `t` reads the two [256, 256] operands and the four [256, 1] coefficient columns whole and columns
  `2048·t … 2048·t + 2047` of the [256, 32768] operand, and writes the same columns of the result. So entry `(s, b)` of the
  result is `c₀[s] + c_A[s]·A + c_B[s]·B + c_AB[s]·(A·B)` with `A`, `B` the entries `(s, b)` of the two matrix products
  (`mixAt`), whichever point covers column `b` (the point `b / 2048`), and the sixteen column blocks tile the array.
-/
import proofs.«137839_j65429531787948_1_alg».proof.Proof.Gen.KernelIdeal.Value
import proofs.«137839_j65429531787948_1_alg».proof.Proof.KernelPayload

noncomputable section

open scoped BigOperators

namespace Cert.KernelIdeal.MixValue

open Cert.KernelIdeal Cert.KernelIdeal.Gen Idealize.ShloMosaic Idealize.ShloMosaic.TcCoe Idealize.SL.Sem
open Idealize.ShloMosaic.ValueIdx Cert.Mix
open Idealize.ShloMosaic.Pipeline (Dat)

variable (m : (ℓ : Loc nD τ sig) → Buf (Elt Ideal) ℓ) (ρ : Dev nD → PrngReg)

theorem hz : (![0, 0] : Fin 2 → Nat) = fun _ => 0 := funext fun a => by fin_cases a <;> rfl

/-- Entry `(s, b)` of the result from the seven arrays. -/
def mixAt (PA PB : S256x256.Idx → EReal) (X : S256x32768.Idx → EReal) (C0 CA CB CAB : S256x1.Idx → EReal)
    (s : Fin 256) (b : Fin 32768) : EReal :=
  C0 (ix2 s (0 : Fin 1)) + CA (ix2 s (0 : Fin 1)) * rowDot PA X s b + CB (ix2 s (0 : Fin 1)) * rowDot PB X s b
    + CAB (ix2 s (0 : Fin 1)) * (rowDot PA X s b * rowDot PB X s b)

/-- The result array: `mixAt` at each index's two coordinates. -/
def G (PA PB : S256x256.Idx → EReal) (X : S256x32768.Idx → EReal) (C0 CA CB CAB : S256x1.Idx → EReal) :
    S256x32768.Idx → EReal :=
  fun i => mixAt PA PB X C0 CA CB CAB ⟨(i 0).val, (i 0).isLt⟩ ⟨(i 1).val, (i 1).isLt⟩

/-- One point's stored block is the matching column block of `G`, for ANY blocks that read the arrays the way the
    windows do: six of them whole, the third operand at columns `2048·T + ·`. -/
theorem block_eq (PA PB : S256x256.Idx → EReal) (X : S256x32768.Idx → EReal) (C0 CA CB CAB : S256x1.Idx → EReal)
    (x0 x1 : Vec Ideal S256x256 .f32) (x2 : Vec Ideal S256x2048 .f32) (x3 x4 x5 x6 : Vec Ideal S256x1 .f32) (T : ℕ)
    (h0 : ∀ y, x0 y = PA y) (h1 : ∀ y, x1 y = PB y)
    (h2 : ∀ (y : S256x2048.Idx) (k : S256x32768.Idx), (k 0).val = (y 0).val → (k 1).val = T * 2048 + (y 1).val → x2 y = X k)
    (h3 : ∀ y, x3 y = C0 y) (h4 : ∀ y, x4 y = CA y) (h5 : ∀ y, x5 y = CB y) (h6 : ∀ y, x6 y = CAB y)
    (j : S256x2048.Idx) (i : S256x32768.Idx) (hi0 : (i 0).val = (j 0).val) (hi1 : (i 1).val = T * 2048 + (j 1).val) :
    k0_pay1 (F := Ideal) x0 x1 x2 x3 x4 x5 x6 j = G PA PB X C0 CA CB CAB i := by
  obtain ⟨p, q, rfl⟩ : ∃ (p : Fin 256) (q : Fin 2048), j = ix2 p q := ⟨j 0, j 1, eq_ix2 j⟩
  rw [pay_apply]
  unfold G mixAt rowDot
  have hs : (⟨(i 0).val, (i 0).isLt⟩ : Fin 256) = p := Fin.ext hi0
  rw [hs, h3, h4, h5, h6]
  have hA : (∑ k : Fin 256, x0 (ix2 p k) * x2 (ix2 k q)) = ∑ k : Fin 256, PA (ix2 p k) * X (ix2 k ⟨(i 1).val, (i 1).isLt⟩) :=
    Finset.sum_congr rfl fun k _ => by rw [h0, h2 (ix2 k q) (ix2 k ⟨(i 1).val, (i 1).isLt⟩) rfl hi1]
  have hB : (∑ k : Fin 256, x1 (ix2 p k) * x2 (ix2 k q)) = ∑ k : Fin 256, PB (ix2 p k) * X (ix2 k ⟨(i 1).val, (i 1).isLt⟩) :=
    Finset.sum_congr rfl fun k _ => by rw [h1, h2 (ix2 k q) (ix2 k ⟨(i 1).val, (i 1).isLt⟩) rfl hi1]
  rw [hA, hB]

/-- The printed index maps over the sixteen points: every window but the third operand's and the result's stays at block
    `(0, 0)`; those two are at block `(0, t)`. -/
theorem idx_facts : ∀ t : Fin cfg0.N, win0_0.index t (0 : Fin 2) = 0 ∧ win0_0.index t (1 : Fin 2) = 0
    ∧ win0_1.index t (0 : Fin 2) = 0 ∧ win0_1.index t (1 : Fin 2) = 0
    ∧ win0_2.index t (0 : Fin 2) = 0 ∧ win0_2.index t (1 : Fin 2) = t.val
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0
    ∧ win0_7.index t (0 : Fin 2) = 0 ∧ win0_7.index t (1 : Fin 2) = t.val :=
  (by decide +kernel : ∀ t : Fin grid0.N, _)

/-- A whole-array window's block is its array. -/
theorem iblk0_apply (c : Dev nD) (t : Fin cfg0.N) (y : S256x256.Idx) :
    (iblk m c 0 t : Vec Ideal S256x256 .f32) y = (V m c main_v10 : S256x256.Idx → EReal) y := by
  obtain ⟨e0, e1, -⟩ := idx_facts t
  unfold iblk
  rw [View.read_apply]
  show V m c main_v10 _ = V m c main_v10 y
  refine congrArg (V m c main_v10 : S256x256.Idx → EReal) (funext fun a => Fin.ext ?_)
  match a with
  | ⟨0, _⟩ => show win0_0.index t (0 : Fin 2) * 256 + 1 * (y 0).val = (y 0).val; rw [e0]; omega
  | ⟨1, _⟩ => show win0_0.index t (1 : Fin 2) * 256 + 1 * (y 1).val = (y 1).val; rw [e1]; omega

theorem iblk1_apply (c : Dev nD) (t : Fin cfg0.N) (y : S256x256.Idx) :
    (iblk m c 1 t : Vec Ideal S256x256 .f32) y = (V m c main_v21 : S256x256.Idx → EReal) y := by
  obtain ⟨_, _, _, _, _, _, _, _, _, _, _, _, _, _, _, _⟩ := idx_facts t
  unfold iblk
  rw [View.read_apply]
  show V m c main_v21 _ = V m c main_v21 y
  refine congrArg (V m c main_v21 : S256x256.Idx → EReal) (funext fun a => Fin.ext ?_)
  match a with
  | ⟨0, _⟩ => show win0_1.index t (0 : Fin 2) * 256 + 1 * (y 0).val = (y 0).val; omega
  | ⟨1, _⟩ => show win0_1.index t (1 : Fin 2) * 256 + 1 * (y 1).val = (y 1).val; omega

theorem iblk3_apply (c : Dev nD) (t : Fin cfg0.N) (y : S256x1.Idx) :
    (iblk m c 3 t : Vec Ideal S256x1 .f32) y = (V m c main_v99 : S256x1.Idx → EReal) y := by
  obtain ⟨_, _, _, _, _, _, _, _, _, _, _, _, _, _, _, _⟩ := idx_facts t
  unfold iblk
  rw [View.read_apply]
  show V m c main_v99 _ = V m c main_v99 y
  refine congrArg (V m c main_v99 : S256x1.Idx → EReal) (funext fun a => Fin.ext ?_)
  match a with
  | ⟨0, _⟩ => show win0_3.index t (0 : Fin 2) * 256 + 1 * (y 0).val = (y 0).val; omega
  | ⟨1, _⟩ => show win0_3.index t (1 : Fin 2) * 1 + 1 * (y 1).val = (y 1).val; omega

theorem iblk4_apply (c : Dev nD) (t : Fin cfg0.N) (y : S256x1.Idx) :
    (iblk m c 4 t : Vec Ideal S256x1 .f32) y = (V m c main_v100 : S256x1.Idx → EReal) y := by
  obtain ⟨_, _, _, _, _, _, _, _, _, _, _, _, _, _, _, _⟩ := idx_facts t
  unfold iblk
  rw [View.read_apply]
  show V m c main_v100 _ = V m c main_v100 y
  refine congrArg (V m c main_v100 : S256x1.Idx → EReal) (funext fun a => Fin.ext ?_)
  match a with
  | ⟨0, _⟩ => show win0_4.index t (0 : Fin 2) * 256 + 1 * (y 0).val = (y 0).val; omega
  | ⟨1, _⟩ => show win0_4.index t (1 : Fin 2) * 1 + 1 * (y 1).val = (y 1).val; omega

theorem iblk5_apply (c : Dev nD) (t : Fin cfg0.N) (y : S256x1.Idx) :
    (iblk m c 5 t : Vec Ideal S256x1 .f32) y = (V m c main_v101 : S256x1.Idx → EReal) y := by
  obtain ⟨_, _, _, _, _, _, _, _, _, _, _, _, _, _, _, _⟩ := idx_facts t
  unfold iblk
  rw [View.read_apply]
  show V m c main_v101 _ = V m c main_v101 y
  refine congrArg (V m c main_v101 : S256x1.Idx → EReal) (funext fun a => Fin.ext ?_)
  match a with
  | ⟨0, _⟩ => show win0_5.index t (0 : Fin 2) * 256 + 1 * (y 0).val = (y 0).val; omega
  | ⟨1, _⟩ => show win0_5.index t (1 : Fin 2) * 1 + 1 * (y 1).val = (y 1).val; omega

theorem iblk6_apply (c : Dev nD) (t : Fin cfg0.N) (y : S256x1.Idx) :
    (iblk m c 6 t : Vec Ideal S256x1 .f32) y = (V m c main_v102 : S256x1.Idx → EReal) y := by
  obtain ⟨_, _, _, _, _, _, _, _, _, _, _, _, _, _, _, _⟩ := idx_facts t
  unfold iblk
  rw [View.read_apply]
  show V m c main_v102 _ = V m c main_v102 y
  refine congrArg (V m c main_v102 : S256x1.Idx → EReal) (funext fun a => Fin.ext ?_)
  match a with
  | ⟨0, _⟩ => show win0_6.index t (0 : Fin 2) * 256 + 1 * (y 0).val = (y 0).val; omega
  | ⟨1, _⟩ => show win0_6.index t (1 : Fin 2) * 1 + 1 * (y 1).val = (y 1).val; omega

/-- The third operand's block at point `t` is columns `2048·t + ·` of its array. -/
theorem iblk2_apply (c : Dev nD) (t : Fin cfg0.N) (y : S256x2048.Idx) (k : S256x32768.Idx)
    (hk0 : (k 0).val = (y 0).val) (hk1 : (k 1).val = t.val * 2048 + (y 1).val) :
    (iblk m c 2 t : Vec Ideal S256x2048 .f32) y = (V m c main_arg0 : S256x32768.Idx → EReal) k := by
  obtain ⟨_, _, _, _, e0, e1, _⟩ := idx_facts t
  unfold iblk
  rw [View.read_apply]
  show V m c main_arg0 _ = V m c main_arg0 k
  refine congrArg (V m c main_arg0 : S256x32768.Idx → EReal) (funext fun a => Fin.ext ?_)
  match a with
  | ⟨0, _⟩ => show win0_2.index t (0 : Fin 2) * 256 + 1 * (y 0).val = (k 0).val; rw [e0, hk0]; omega
  | ⟨1, _⟩ => show win0_2.index t (1 : Fin 2) * 2048 + 1 * (y 1).val = (k 1).val; rw [e1, hk1]; omega

/-- The result array as the function `G` of the arrays the region finds. -/
abbrev result (c : Dev nD) : S256x32768.Idx → EReal :=
  G (V m c main_v10) (V m c main_v21) (V m c main_arg0) (V m c main_v99) (V m c main_v100) (V m c main_v101) (V m c main_v102)

/-- What point `t` writes back is block `t` of `result`. -/
theorem flushed_eq (c : Dev nD) (t : Fin cfg0.N) :
    (dats m 0 c).flushed 7 t = ((cfg0.win 7).blk t).view.read (Elt Ideal) (result m c) := by
  rw [Cert.KernelIdeal.Value.flushed7]
  unfold out0_7
  rw [View.canon_unit_zero hz]
  simp only [View.ld_unit_zero (S := S256x256) hz, View.ld_unit_zero (S := S256x2048) hz, View.ld_unit_zero (S := S256x1) hz]
  obtain ⟨_, _, _, _, _, _, _, _, _, _, _, _, _, _, e70, e71⟩ := idx_facts t
  funext j
  refine block_eq (V m c main_v10) (V m c main_v21) (V m c main_arg0) (V m c main_v99) (V m c main_v100) (V m c main_v101) (V m c main_v102)
    (iblk m c 0 t) (iblk m c 1 t) (iblk m c 2 t) (iblk m c 3 t) (iblk m c 4 t) (iblk m c 5 t) (iblk m c 6 t) t.val
    (iblk0_apply m c t) (iblk1_apply m c t) (fun y k h0 h1 => iblk2_apply m c t y k h0 h1)
    (iblk3_apply m c t) (iblk4_apply m c t) (iblk5_apply m c t) (iblk6_apply m c t) j (((cfg0.win 7).blk t).view.emb j) ?_ ?_
  · show win0_7.index t (0 : Fin 2) * 256 + 1 * (j 0).val = (j 0).val; rw [e70]; omega
  · show win0_7.index t (1 : Fin 2) * 2048 + 1 * (j 1).val = t.val * 2048 + (j 1).val; rw [e71]; omega

/-- An index of the array is in point `t`'s block iff each coordinate is in the block's range on its axis. -/
theorem mem_blk (t : Fin cfg0.N) (i : S256x32768.Idx) :
    i ∈ ((cfg0.win 7).blk t).view.set ↔ ∀ a : Fin 2, win0_7.index t a * S256x2048.size a ≤ (i a).val ∧ (i a).val < win0_7.index t a * S256x2048.size a + S256x2048.size a := by
  show i ∈ ((View.whole main_v103).slice (win0_7.rect t)).set ↔ _
  rw [View.set_slice_whole, Rect.mem_set_unit]
  exact Iff.rfl

/-- Every index is in the block of the point its column falls in. -/
theorem cover (i : S256x32768.Idx) : ∃ t : Fin cfg0.N, (cfg0.win 7).flush t = true ∧ i ∈ ((cfg0.win 7).blk t).view.set := by
  have hN : cfg0.N = 16 := N_0
  have hi0 : (i 0).val < 256 := (i 0).isLt
  have hi1 : (i 1).val < 32768 := (i 1).isLt
  refine ⟨⟨(i 1).val / 2048, by rw [hN]; omega⟩, flush0_7 _, ?_⟩
  rw [mem_blk]
  obtain ⟨_, _, _, _, _, _, _, _, _, _, _, _, _, _, e70, e71⟩ := idx_facts ⟨(i 1).val / 2048, by rw [hN]; omega⟩
  intro a
  match a with
  | ⟨0, _⟩ => show win0_7.index _ (0 : Fin 2) * 256 ≤ (i 0).val ∧ (i 0).val < win0_7.index _ (0 : Fin 2) * 256 + 256; rw [e70]; omega
  | ⟨1, _⟩ => show win0_7.index _ (1 : Fin 2) * 2048 ≤ (i 1).val ∧ (i 1).val < win0_7.index _ (1 : Fin 2) * 2048 + 2048; rw [e71]; show (i 1).val / 2048 * 2048 ≤ (i 1).val ∧ (i 1).val < (i 1).val / 2048 * 2048 + 2048; omega

/-- The result array after the run. -/
theorem final (c : Dev nD) : (dats m 0 c).arrAt 7 cfg0.N = result m c :=
  (dats m 0 c).arrAt_eq_of_cover 7 (result m c) (fun t _ => flushed_eq m c t) cover

/-- The run, read: the result array at `result`, the arguments unchanged. -/
theorem run : θ_run defs (onTc (τ := τ) (main (F := Ideal))) ⟨m, fun _ => 0, ρ⟩ fun r => ∀ c : Dev nD,
      r.2.mem ((c : Thread nD τ).loc main_v103) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun _ h c => ⟨(h c).1.trans (final m c), (h c).2⟩)
    (Cert.KernelIdeal.Value.run_blocks m ρ)

end Cert.KernelIdeal.MixValue

end
-- ==== Proof.KernelHost.lean ====
/-
  The four coefficient columns the kernel's program computes before its region, read at a row. With `pt` the [16, 256]
  array of gate weights (the column softmax, whatever it is), `w k` is its row `k` as a vector (a one-row slice, re-laid),
  and the columns are sums and differences of these rows, re-laid as [256, 1]: at row `s` they are the scalar
  combinations `cConst`, `cA`, `cB`, `cAB` of the sixteen numbers `pt[k, s]`.
-/
import proofs.«137839_j65429531787948_1_alg».proof.Proof.Gen.KernelIdeal.Frame
import proofs.«137839_j65429531787948_1_alg».proof.Proof.Spec
import proofs.«137839_j65429531787948_1_alg».proof.Proof.LibKeepdims
import Idealize.ShloMosaic.Lib.ValueLayout
import Idealize.ShloMosaic.Lib.IdealHost
import Idealize.ShloMosaic.Lib.StableHlo.Run

noncomputable section

namespace Cert.KernelIdeal.MixHost

open Cert.KernelIdeal Cert.KernelIdeal.Gen Idealize.ShloMosaic Idealize.ShloMosaic.TcCoe Idealize.SL.Sem
open Idealize.ShloMosaic.ValueIdx Cert.Mix Idealize.ShloMosaic.StableHlo

section Defs
variable {F : FTy → Type} [FloatOps F]

/-- Row `k` of the weights as a vector: the one-row slice at `k`, its unit axis dropped. -/
def wrow (pt : FVec F S16x256 .f32) : Fin 16 → FVec F S256 .f32
  | ⟨0, _⟩ => shapeCast S256 (extractStridedSlice S1x256 ![0, 0] pt slices_S16x256_S1x256_0_0) shapeCasts_S1x256_S256
  | ⟨1, _⟩ => shapeCast S256 (extractStridedSlice S1x256 ![1, 0] pt slices_S16x256_S1x256_1_0) shapeCasts_S1x256_S256
  | ⟨2, _⟩ => shapeCast S256 (extractStridedSlice S1x256 ![2, 0] pt slices_S16x256_S1x256_2_0) shapeCasts_S1x256_S256
  | ⟨3, _⟩ => shapeCast S256 (extractStridedSlice S1x256 ![3, 0] pt slices_S16x256_S1x256_3_0) shapeCasts_S1x256_S256
  | ⟨4, _⟩ => shapeCast S256 (extractStridedSlice S1x256 ![4, 0] pt slices_S16x256_S1x256_4_0) shapeCasts_S1x256_S256
  | ⟨5, _⟩ => shapeCast S256 (extractStridedSlice S1x256 ![5, 0] pt slices_S16x256_S1x256_5_0) shapeCasts_S1x256_S256
  | ⟨6, _⟩ => shapeCast S256 (extractStridedSlice S1x256 ![6, 0] pt slices_S16x256_S1x256_6_0) shapeCasts_S1x256_S256
  | ⟨7, _⟩ => shapeCast S256 (extractStridedSlice S1x256 ![7, 0] pt slices_S16x256_S1x256_7_0) shapeCasts_S1x256_S256
  | ⟨8, _⟩ => shapeCast S256 (extractStridedSlice S1x256 ![8, 0] pt slices_S16x256_S1x256_8_0) shapeCasts_S1x256_S256
  | ⟨9, _⟩ => shapeCast S256 (extractStridedSlice S1x256 ![9, 0] pt slices_S16x256_S1x256_9_0) shapeCasts_S1x256_S256
  | ⟨10, _⟩ => shapeCast S256 (extractStridedSlice S1x256 ![10, 0] pt slices_S16x256_S1x256_10_0) shapeCasts_S1x256_S256
  | ⟨11, _⟩ => shapeCast S256 (extractStridedSlice S1x256 ![11, 0] pt slices_S16x256_S1x256_11_0) shapeCasts_S1x256_S256
  | ⟨12, _⟩ => shapeCast S256 (extractStridedSlice S1x256 ![12, 0] pt slices_S16x256_S1x256_12_0) shapeCasts_S1x256_S256
  | ⟨13, _⟩ => shapeCast S256 (extractStridedSlice S1x256 ![13, 0] pt slices_S16x256_S1x256_13_0) shapeCasts_S1x256_S256
  | ⟨14, _⟩ => shapeCast S256 (extractStridedSlice S1x256 ![14, 0] pt slices_S16x256_S1x256_14_0) shapeCasts_S1x256_S256
  | ⟨15, _⟩ => shapeCast S256 (extractStridedSlice S1x256 ![15, 0] pt slices_S16x256_S1x256_15_0) shapeCasts_S1x256_S256
  | ⟨_ + 16, h⟩ => absurd h (Nat.not_lt.2 (Nat.le_add_left _ _))

/-- The splat of the float two. -/
def twos : FVec F S256 .f32 := broadcastInDim S256 ![] bcast_S_S256 (constant S_ .f32 0x40000000#32)

/-- The constant coefficient as a column. -/
def coefConst (pt : FVec F S16x256 .f32) : FVec F S256x1 .f32 :=
  shapeCast S256x1 (addf (addf (addf (addf (addf (addf (addf (wrow pt 8) (wrow pt 9)) (wrow pt 10)) (wrow pt 11)) (wrow pt 12)) (wrow pt 13)) (wrow pt 14)) (wrow pt 15)) shapeCasts_S256_S256x1
/-- The coefficient of `A` as a column. -/
def coefA (pt : FVec F S16x256 .f32) : FVec F S256x1 .f32 :=
  shapeCast S256x1 (subf (subf (subf (subf (addf (addf (addf (wrow pt 2) (wrow pt 3)) (wrow pt 6)) (wrow pt 7)) (wrow pt 8)) (wrow pt 9)) (wrow pt 12)) (wrow pt 13)) shapeCasts_S256_S256x1
/-- The coefficient of `B` as a column. -/
def coefB (pt : FVec F S16x256 .f32) : FVec F S256x1 .f32 :=
  shapeCast S256x1 (subf (subf (subf (subf (addf (addf (addf (wrow pt 4) (wrow pt 5)) (wrow pt 6)) (wrow pt 7)) (wrow pt 8)) (wrow pt 9)) (wrow pt 10)) (wrow pt 11)) shapeCasts_S256_S256x1
/-- The coefficient of `A · B` as a column. -/
def coefAB (pt : FVec F S16x256 .f32) : FVec F S256x1 .f32 :=
  shapeCast S256x1 (subf (addf (addf (addf (addf (subf (subf (subf (subf (wrow pt 1) (wrow pt 2)) (wrow pt 4)) (mulf twos (wrow pt 6))) (wrow pt 7)) (wrow pt 8)) (mulf twos (wrow pt 9))) (wrow pt 11)) (wrow pt 13)) (wrow pt 14)) shapeCasts_S256_S256x1

end Defs

/-- Row `k` of the weights read at `s`. -/
theorem wrow_apply (pt : FVec Ideal S16x256 .f32) (k : Fin 16) (s : Fin 256) : wrow pt k (ix1 s) = pt (ix2 k s) :=
  match k with
  | ⟨0, _⟩ => (shapeCast_1a_a_apply _ shapeCasts_S1x256_S256 s).trans (slice2_axis0_apply 0 pt slices_S16x256_S1x256_0_0 (0 : Fin 1) s ⟨0, by decide⟩ rfl)
  | ⟨1, _⟩ => (shapeCast_1a_a_apply _ shapeCasts_S1x256_S256 s).trans (slice2_axis0_apply 1 pt slices_S16x256_S1x256_1_0 (0 : Fin 1) s ⟨1, by decide⟩ rfl)
  | ⟨2, _⟩ => (shapeCast_1a_a_apply _ shapeCasts_S1x256_S256 s).trans (slice2_axis0_apply 2 pt slices_S16x256_S1x256_2_0 (0 : Fin 1) s ⟨2, by decide⟩ rfl)
  | ⟨3, _⟩ => (shapeCast_1a_a_apply _ shapeCasts_S1x256_S256 s).trans (slice2_axis0_apply 3 pt slices_S16x256_S1x256_3_0 (0 : Fin 1) s ⟨3, by decide⟩ rfl)
  | ⟨4, _⟩ => (shapeCast_1a_a_apply _ shapeCasts_S1x256_S256 s).trans (slice2_axis0_apply 4 pt slices_S16x256_S1x256_4_0 (0 : Fin 1) s ⟨4, by decide⟩ rfl)
  | ⟨5, _⟩ => (shapeCast_1a_a_apply _ shapeCasts_S1x256_S256 s).trans (slice2_axis0_apply 5 pt slices_S16x256_S1x256_5_0 (0 : Fin 1) s ⟨5, by decide⟩ rfl)
  | ⟨6, _⟩ => (shapeCast_1a_a_apply _ shapeCasts_S1x256_S256 s).trans (slice2_axis0_apply 6 pt slices_S16x256_S1x256_6_0 (0 : Fin 1) s ⟨6, by decide⟩ rfl)
  | ⟨7, _⟩ => (shapeCast_1a_a_apply _ shapeCasts_S1x256_S256 s).trans (slice2_axis0_apply 7 pt slices_S16x256_S1x256_7_0 (0 : Fin 1) s ⟨7, by decide⟩ rfl)
  | ⟨8, _⟩ => (shapeCast_1a_a_apply _ shapeCasts_S1x256_S256 s).trans (slice2_axis0_apply 8 pt slices_S16x256_S1x256_8_0 (0 : Fin 1) s ⟨8, by decide⟩ rfl)
  | ⟨9, _⟩ => (shapeCast_1a_a_apply _ shapeCasts_S1x256_S256 s).trans (slice2_axis0_apply 9 pt slices_S16x256_S1x256_9_0 (0 : Fin 1) s ⟨9, by decide⟩ rfl)
  | ⟨10, _⟩ => (shapeCast_1a_a_apply _ shapeCasts_S1x256_S256 s).trans (slice2_axis0_apply 10 pt slices_S16x256_S1x256_10_0 (0 : Fin 1) s ⟨10, by decide⟩ rfl)
  | ⟨11, _⟩ => (shapeCast_1a_a_apply _ shapeCasts_S1x256_S256 s).trans (slice2_axis0_apply 11 pt slices_S16x256_S1x256_11_0 (0 : Fin 1) s ⟨11, by decide⟩ rfl)
  | ⟨12, _⟩ => (shapeCast_1a_a_apply _ shapeCasts_S1x256_S256 s).trans (slice2_axis0_apply 12 pt slices_S16x256_S1x256_12_0 (0 : Fin 1) s ⟨12, by decide⟩ rfl)
  | ⟨13, _⟩ => (shapeCast_1a_a_apply _ shapeCasts_S1x256_S256 s).trans (slice2_axis0_apply 13 pt slices_S16x256_S1x256_13_0 (0 : Fin 1) s ⟨13, by decide⟩ rfl)
  | ⟨14, _⟩ => (shapeCast_1a_a_apply _ shapeCasts_S1x256_S256 s).trans (slice2_axis0_apply 14 pt slices_S16x256_S1x256_14_0 (0 : Fin 1) s ⟨14, by decide⟩ rfl)
  | ⟨15, _⟩ => (shapeCast_1a_a_apply _ shapeCasts_S1x256_S256 s).trans (slice2_axis0_apply 15 pt slices_S16x256_S1x256_15_0 (0 : Fin 1) s ⟨15, by decide⟩ rfl)
  | ⟨_ + 16, h⟩ => absurd h (Nat.not_lt.2 (Nat.le_add_left _ _))

/-- The f32 pattern `0x40000000` is the real two. -/
theorem ofBits_two_f32 : Ideal.ofBits .f32 0x40000000#32 = two := by
  unfold two
  simp [Ideal.ofBits, Ideal.ieee, -EReal.coe_mul]; norm_num

theorem twos_apply (i : S256.Idx) : twos (F := Ideal) i = two := by
  unfold twos
  rw [broadcastInDim_scalar_apply]
  exact ofBits_two_f32

/-- The constant coefficient at row `s`. -/
theorem coefConst_apply (pt : FVec Ideal S16x256 .f32) (s : Fin 256) :
    coefConst pt (ix2 s (0 : Fin 1)) = cConst (fun k => pt (ix2 k s)) := by
  unfold coefConst cConst
  rw [Cert.LibKeepdims.shapeCast_a_a1_apply]
  simp only [addf_apply, subf_apply, mulf_apply, wrow_apply, twos_apply]

/-- The coefficient of `A` at row `s`. -/
theorem coefA_apply (pt : FVec Ideal S16x256 .f32) (s : Fin 256) :
    coefA pt (ix2 s (0 : Fin 1)) = cA (fun k => pt (ix2 k s)) := by
  unfold coefA cA
  rw [Cert.LibKeepdims.shapeCast_a_a1_apply]
  simp only [addf_apply, subf_apply, mulf_apply, wrow_apply, twos_apply]

/-- The coefficient of `B` at row `s`. -/
theorem coefB_apply (pt : FVec Ideal S16x256 .f32) (s : Fin 256) :
    coefB pt (ix2 s (0 : Fin 1)) = cB (fun k => pt (ix2 k s)) := by
  unfold coefB cB
  rw [Cert.LibKeepdims.shapeCast_a_a1_apply]
  simp only [addf_apply, subf_apply, mulf_apply, wrow_apply, twos_apply]

/-- The coefficient of `A · B` at row `s`. -/
theorem coefAB_apply (pt : FVec Ideal S16x256 .f32) (s : Fin 256) :
    coefAB pt (ix2 s (0 : Fin 1)) = cAB (fun k => pt (ix2 k s)) := by
  unfold coefAB cAB
  rw [Cert.LibKeepdims.shapeCast_a_a1_apply]
  simp only [addf_apply, subf_apply, mulf_apply, wrow_apply, twos_apply]

section Prefix
variable {F : FTy → Type} [FloatOps F]
variable (m : (ℓ : Loc nD τ sig) → Buf (Elt F) ℓ)

set_option maxHeartbeats 4000000 in
/-- The four coefficient columns the region finds are these functions of the weights array it finds. -/
theorem V_v99 (c : Dev nD) : (V m c main_v99 : S256x1.Idx → Elt F .f32) = coefConst (F := F) (V m c main_v32) := by
  dsimp only [V, hostOps0]
  after_results_simp
  rfl
set_option maxHeartbeats 4000000 in
theorem V_v100 (c : Dev nD) : (V m c main_v100 : S256x1.Idx → Elt F .f32) = coefA (F := F) (V m c main_v32) := by
  dsimp only [V, hostOps0]
  after_results_simp
  rfl
set_option maxHeartbeats 4000000 in
theorem V_v101 (c : Dev nD) : (V m c main_v101 : S256x1.Idx → Elt F .f32) = coefB (F := F) (V m c main_v32) := by
  dsimp only [V, hostOps0]
  after_results_simp
  rfl
set_option maxHeartbeats 4000000 in
theorem V_v102 (c : Dev nD) : (V m c main_v102 : S256x1.Idx → Elt F .f32) = coefAB (F := F) (V m c main_v32) := by
  dsimp only [V, hostOps0]
  after_results_simp
  rfl

end Prefix

end Cert.KernelIdeal.MixHost

end
-- ==== Proof.KernelRefHost.lean ====
/-
  The three softmax arrays the kernel's program computes before its region are the reference's own stages of the same
  arguments: both programs apply the same operations (a maximum along the axis from −∞, a subtraction, an exponential, a sum
  along the axis from 0, a quotient) to the same argument, so the arrays are equal as terms, and no softmax is opened here.
-/
import proofs.«137839_j65429531787948_1_alg».proof.Proof.Gen.KernelIdeal.Frame
import proofs.«137839_j65429531787948_1_alg».proof.Proof.RefRead
import Idealize.ShloMosaic.Lib.StableHlo.Run

noncomputable section

namespace Cert.KernelIdeal.MixHost

open Cert.KernelIdeal Cert.KernelIdeal.Gen Idealize.ShloMosaic Idealize.ShloMosaic.TcCoe Idealize.SL.Sem
open Idealize.ShloMosaic.StableHlo

variable {F : FTy → Type} [FloatOps F]
variable (m : (ℓ : Loc nD τ sig) → Buf (Elt F) ℓ)

set_option maxHeartbeats 4000000 in
/-- The first [256, 256] operand the region finds is the row softmax of the second argument. -/
theorem V_v10 (c : Dev nD) : (V m c main_v10 : S256x256.Idx → Elt F .f32)
    = Cert.ReferenceIdeal.ReadP.val_main_v10 (F := F) (m ((c : Thread nD τ).loc main_arg1)) := by
  dsimp only [V, hostOps0]
  after_results_simp
  rfl

set_option maxHeartbeats 4000000 in
/-- The second [256, 256] operand the region finds is the row softmax of the third argument. -/
theorem V_v21 (c : Dev nD) : (V m c main_v21 : S256x256.Idx → Elt F .f32)
    = Cert.ReferenceIdeal.ReadP.val_main_v21 (F := F) (m ((c : Thread nD τ).loc main_arg2)) := by
  dsimp only [V, hostOps0]
  after_results_simp
  rfl

set_option maxHeartbeats 4000000 in
/-- The weights array the coefficient columns are cut from is the column softmax of the fourth argument. -/
theorem V_v32 (c : Dev nD) : (V m c main_v32 : S16x256.Idx → Elt F .f32)
    = Cert.ReferenceIdeal.ReadP.val_main_v32 (F := F) (m ((c : Thread nD τ).loc main_arg3)) := by
  dsimp only [V, hostOps0]
  after_results_simp
  rfl

end Cert.KernelIdeal.MixHost

end
-- ==== Proof.RefMix.lean ====
/-
  The reference's result read at one entry. Entry `(s, b)` of the result is the sum over the sixteen stacked gates of gate
  `k` at `(s, b)` times the weight `pt[k, s]`, from zero; gate `k`'s array is piece `k` of the stack, an expression in the
  two matrix products `A`, `B` at `(s, b)` and the constants 0, 1, 2. So the entry is `refMix A B (pt[·, s])`.
-/
import proofs.«137839_j65429531787948_1_alg».proof.Proof.Spec
import proofs.«137839_j65429531787948_1_alg».proof.Proof.RefRead
import Idealize.ShloMosaic.Lib.ValueLayout
import Idealize.ShloMosaic.Lib.IdealHost

noncomputable section

open scoped BigOperators

namespace Cert.Mix

open Cert.ReferenceIdeal Cert.ReferenceIdeal.Gen Cert.ReferenceIdeal.ReadP Idealize.ShloMosaic Idealize.ShloMosaic.ValueIdx

/-- Two rank-2 indices with the same coordinates are equal. -/
local macro "idx2" : tactic => `(tactic| (funext a; match a with | ⟨0, _⟩ => rfl | ⟨1, _⟩ => rfl))

/-- The single-precision pattern `0x40000000` is the real two. -/
private theorem ofBits_two_f32 : Ideal.ofBits .f32 0x40000000#32 = two := by
  unfold two
  simp [Ideal.ofBits, Ideal.ieee, -EReal.coe_mul]; norm_num

/-! ## The constant arrays -/

private theorem zero42 (i : S256x32768.Idx) : val_main_v42 (F := Ideal) i = (0 : EReal) := by
  rw [val_main_v42_apply, val_main_cst_9_apply, Ideal.ofBits_def, Ideal.ofBits_zero_f32]
private theorem two39 (i : S256x32768.Idx) : val_main_v39 (F := Ideal) i = two := by
  rw [val_main_v39_apply, val_main_cst_8_apply, Ideal.ofBits_def, ofBits_two_f32]
private theorem one43 (i : S256x32768.Idx) : val_main_v43 (F := Ideal) i = (1 : EReal) := by
  rw [val_main_v43_apply, val_main_cst_10_apply, Ideal.ofBits_def, Ideal.ofBits_one_f32]
private theorem one46 (i : S256x32768.Idx) : val_main_v46 (F := Ideal) i = (1 : EReal) := by
  rw [val_main_v46_apply, val_main_cst_11_apply, Ideal.ofBits_def, Ideal.ofBits_one_f32]
private theorem one48 (i : S256x32768.Idx) : val_main_v48 (F := Ideal) i = (1 : EReal) := by
  rw [val_main_v48_apply, val_main_cst_12_apply, Ideal.ofBits_def, Ideal.ofBits_one_f32]
private theorem one50 (i : S256x32768.Idx) : val_main_v50 (F := Ideal) i = (1 : EReal) := by
  rw [val_main_v50_apply, val_main_cst_13_apply, Ideal.ofBits_def, Ideal.ofBits_one_f32]
private theorem one52 (i : S256x32768.Idx) : val_main_v52 (F := Ideal) i = (1 : EReal) := by
  rw [val_main_v52_apply, val_main_cst_14_apply, Ideal.ofBits_def, Ideal.ofBits_one_f32]
private theorem one55 (i : S256x32768.Idx) : val_main_v55 (F := Ideal) i = (1 : EReal) := by
  rw [val_main_v55_apply, val_main_cst_15_apply, Ideal.ofBits_def, Ideal.ofBits_one_f32]
private theorem one57 (i : S256x32768.Idx) : val_main_v57 (F := Ideal) i = (1 : EReal) := by
  rw [val_main_v57_apply, val_main_cst_16_apply, Ideal.ofBits_def, Ideal.ofBits_one_f32]
private theorem one60 (i : S256x32768.Idx) : val_main_v60 (F := Ideal) i = (1 : EReal) := by
  rw [val_main_v60_apply, val_main_cst_17_apply, Ideal.ofBits_def, Ideal.ofBits_one_f32]

/-! ## The stack of the sixteen gates -/

/-- A stack of sixteen `[1, 256, 32768]` pieces along the first axis, read at `(k, s, b)`: piece `k` at `(0, s, b)`. -/
private theorem stack_apply {α : Type} (xs : List ((s : Shape) × (s.Idx → α)))
    (h : Shape.Concatenates (xs.map (·.1)) S16x256x32768 0)
    (hs : xs.map (·.1) = List.replicate 16 S1x256x32768) (k : Nat) (hk16 : k < 16)
    (x₁ : S1x256x32768.Idx → α) (hxk : xs[k]? = some ⟨S1x256x32768, x₁⟩) (s : Fin 256) (b : Fin 32768) :
    concatenate S16x256x32768 0 xs h (ix3 ⟨k, hk16⟩ s b) = x₁ (ix3 (0 : Fin 1) s b) := by
  obtain ⟨hk, hxk'⟩ := List.getElem?_eq_some_iff.1 hxk
  have one : (if h : S1x256x32768.rank = S16x256x32768.rank then
      S1x256x32768.size ((0 : Fin S16x256x32768.rank).cast h.symm) else 0) = 1 := by decide
  have hpre : (((xs.take k).map (·.1)).map fun s =>
      if h : s.rank = S16x256x32768.rank then s.size ((0 : Fin S16x256x32768.rank).cast h.symm) else 0).sum = k := by
    have e : (xs.take k).map (·.1) = List.replicate k S1x256x32768 := by
      rw [List.map_take, hs, List.take_replicate, Nat.min_eq_left (Nat.le_of_lt hk16)]
    rw [e, List.map_replicate, List.sum_replicate, one, smul_eq_mul, Nat.mul_one]
  refine concatenate_apply_piece 0 xs h _ k hk S1x256x32768 x₁ hxk' rfl k hpre (ix3 (0 : Fin 1) s b) ?_ rfl
  intro c hc
  match c with
  | ⟨0, _⟩ => exact absurd rfl hc
  | ⟨1, _⟩ => rfl
  | ⟨2, _⟩ => rfl

section Pieces

variable (x0 : (⟨S256x32768, .f32⟩ : BufTy).Contents (Elt Ideal)) (x1 x2 : (⟨S256x256, .f32⟩ : BufTy).Contents (Elt Ideal)) (s : Fin 256) (b : Fin 32768)

local notation "A" => val_main_v33 (F := Ideal) x0 x1 (ix2 s b)
local notation "B" => val_main_v34 (F := Ideal) x0 x2 (ix2 s b)

private theorem piece0 : val_main_v62 (F := Ideal)  (ix3 (0 : Fin 1) s b) = gate 0 A B := by
  rw [val_main_v62_apply, show idx_main_v62 (ix3 (0 : Fin 1) s b) = ix2 s b from by idx2]
  rw [zero42]
  rfl
private theorem piece1 : val_main_v63 (F := Ideal) x0 x1 x2 (ix3 (0 : Fin 1) s b) = gate 1 A B := by
  rw [val_main_v63_apply, show idx_main_v63 (ix3 (0 : Fin 1) s b) = ix2 s b from by idx2]
  rfl
private theorem piece2 : val_main_v64 (F := Ideal) x0 x1 x2 (ix3 (0 : Fin 1) s b) = gate 2 A B := by
  rw [val_main_v64_apply, show idx_main_v64 (ix3 (0 : Fin 1) s b) = ix2 s b from by idx2]
  rfl
private theorem piece3 : val_main_v65 (F := Ideal) x0 x1 (ix3 (0 : Fin 1) s b) = gate 3 A B := by
  rw [val_main_v65_apply, show idx_main_v65 (ix3 (0 : Fin 1) s b) = ix2 s b from by idx2]
  rfl
private theorem piece4 : val_main_v66 (F := Ideal) x0 x1 x2 (ix3 (0 : Fin 1) s b) = gate 4 A B := by
  rw [val_main_v66_apply, show idx_main_v66 (ix3 (0 : Fin 1) s b) = ix2 s b from by idx2]
  rfl
private theorem piece5 : val_main_v67 (F := Ideal) x0 x2 (ix3 (0 : Fin 1) s b) = gate 5 A B := by
  rw [val_main_v67_apply, show idx_main_v67 (ix3 (0 : Fin 1) s b) = ix2 s b from by idx2]
  rfl
private theorem piece6 : val_main_v68 (F := Ideal) x0 x1 x2 (ix3 (0 : Fin 1) s b) = gate 6 A B := by
  rw [val_main_v68_apply, show idx_main_v68 (ix3 (0 : Fin 1) s b) = ix2 s b from by idx2]
  rw [val_main_v41_apply, val_main_v40_apply, two39]
  rfl
private theorem piece7 : val_main_v69 (F := Ideal) x0 x1 x2 (ix3 (0 : Fin 1) s b) = gate 7 A B := by
  rw [val_main_v69_apply, show idx_main_v69 (ix3 (0 : Fin 1) s b) = ix2 s b from by idx2]
  rfl
private theorem piece8 : val_main_v70 (F := Ideal) x0 x1 x2 (ix3 (0 : Fin 1) s b) = gate 8 A B := by
  rw [val_main_v70_apply, show idx_main_v70 (ix3 (0 : Fin 1) s b) = ix2 s b from by idx2]
  rw [val_main_v47_apply, one46]
  rfl
private theorem piece9 : val_main_v71 (F := Ideal) x0 x1 x2 (ix3 (0 : Fin 1) s b) = gate 9 A B := by
  rw [val_main_v71_apply, show idx_main_v71 (ix3 (0 : Fin 1) s b) = ix2 s b from by idx2]
  rw [val_main_v49_apply, one48, val_main_v41_apply, val_main_v40_apply, two39]
  rfl
private theorem piece10 : val_main_v72 (F := Ideal) x0 x2 (ix3 (0 : Fin 1) s b) = gate 10 A B := by
  rw [val_main_v72_apply, show idx_main_v72 (ix3 (0 : Fin 1) s b) = ix2 s b from by idx2]
  rw [val_main_v51_apply, one50]
  rfl
private theorem piece11 : val_main_v73 (F := Ideal) x0 x1 x2 (ix3 (0 : Fin 1) s b) = gate 11 A B := by
  rw [val_main_v73_apply, show idx_main_v73 (ix3 (0 : Fin 1) s b) = ix2 s b from by idx2]
  rw [val_main_v54_apply, val_main_v53_apply, one52]
  rfl
private theorem piece12 : val_main_v74 (F := Ideal) x0 x1 (ix3 (0 : Fin 1) s b) = gate 12 A B := by
  rw [val_main_v74_apply, show idx_main_v74 (ix3 (0 : Fin 1) s b) = ix2 s b from by idx2]
  rw [val_main_v56_apply, one55]
  rfl
private theorem piece13 : val_main_v75 (F := Ideal) x0 x1 x2 (ix3 (0 : Fin 1) s b) = gate 13 A B := by
  rw [val_main_v75_apply, show idx_main_v75 (ix3 (0 : Fin 1) s b) = ix2 s b from by idx2]
  rw [val_main_v59_apply, val_main_v58_apply, one57]
  rfl
private theorem piece14 : val_main_v76 (F := Ideal) x0 x1 x2 (ix3 (0 : Fin 1) s b) = gate 14 A B := by
  rw [val_main_v76_apply, show idx_main_v76 (ix3 (0 : Fin 1) s b) = ix2 s b from by idx2]
  rw [val_main_v61_apply, one60]
  rfl
private theorem piece15 : val_main_v77 (F := Ideal)  (ix3 (0 : Fin 1) s b) = gate 15 A B := by
  rw [val_main_v77_apply, show idx_main_v77 (ix3 (0 : Fin 1) s b) = ix2 s b from by idx2]
  rw [one43]
  rfl

/-- Entry `(k, s, b)` of the stack is gate `k` of the two products at `(s, b)`. -/
private theorem stack_gate (k : Fin 16) : val_main_v78 (F := Ideal) x0 x1 x2 (ix3 k s b) = gate k A B := by
  unfold val_main_v78
  match k with
  | ⟨0, _⟩ =>
    exact (stack_apply _ _ rfl 0 (by decide) (val_main_v62 (F := Ideal)) rfl s b).trans (piece0 x0 x1 x2 s b)
  | ⟨1, _⟩ =>
    exact (stack_apply _ _ rfl 1 (by decide) (val_main_v63 (F := Ideal) x0 x1 x2) rfl s b).trans (piece1 x0 x1 x2 s b)
  | ⟨2, _⟩ =>
    exact (stack_apply _ _ rfl 2 (by decide) (val_main_v64 (F := Ideal) x0 x1 x2) rfl s b).trans (piece2 x0 x1 x2 s b)
  | ⟨3, _⟩ =>
    exact (stack_apply _ _ rfl 3 (by decide) (val_main_v65 (F := Ideal) x0 x1) rfl s b).trans (piece3 x0 x1 x2 s b)
  | ⟨4, _⟩ =>
    exact (stack_apply _ _ rfl 4 (by decide) (val_main_v66 (F := Ideal) x0 x1 x2) rfl s b).trans (piece4 x0 x1 x2 s b)
  | ⟨5, _⟩ =>
    exact (stack_apply _ _ rfl 5 (by decide) (val_main_v67 (F := Ideal) x0 x2) rfl s b).trans (piece5 x0 x1 x2 s b)
  | ⟨6, _⟩ =>
    exact (stack_apply _ _ rfl 6 (by decide) (val_main_v68 (F := Ideal) x0 x1 x2) rfl s b).trans (piece6 x0 x1 x2 s b)
  | ⟨7, _⟩ =>
    exact (stack_apply _ _ rfl 7 (by decide) (val_main_v69 (F := Ideal) x0 x1 x2) rfl s b).trans (piece7 x0 x1 x2 s b)
  | ⟨8, _⟩ =>
    exact (stack_apply _ _ rfl 8 (by decide) (val_main_v70 (F := Ideal) x0 x1 x2) rfl s b).trans (piece8 x0 x1 x2 s b)
  | ⟨9, _⟩ =>
    exact (stack_apply _ _ rfl 9 (by decide) (val_main_v71 (F := Ideal) x0 x1 x2) rfl s b).trans (piece9 x0 x1 x2 s b)
  | ⟨10, _⟩ =>
    exact (stack_apply _ _ rfl 10 (by decide) (val_main_v72 (F := Ideal) x0 x2) rfl s b).trans (piece10 x0 x1 x2 s b)
  | ⟨11, _⟩ =>
    exact (stack_apply _ _ rfl 11 (by decide) (val_main_v73 (F := Ideal) x0 x1 x2) rfl s b).trans (piece11 x0 x1 x2 s b)
  | ⟨12, _⟩ =>
    exact (stack_apply _ _ rfl 12 (by decide) (val_main_v74 (F := Ideal) x0 x1) rfl s b).trans (piece12 x0 x1 x2 s b)
  | ⟨13, _⟩ =>
    exact (stack_apply _ _ rfl 13 (by decide) (val_main_v75 (F := Ideal) x0 x1 x2) rfl s b).trans (piece13 x0 x1 x2 s b)
  | ⟨14, _⟩ =>
    exact (stack_apply _ _ rfl 14 (by decide) (val_main_v76 (F := Ideal) x0 x1 x2) rfl s b).trans (piece14 x0 x1 x2 s b)
  | ⟨15, _⟩ =>
    exact (stack_apply _ _ rfl 15 (by decide) (val_main_v77 (F := Ideal)) rfl s b).trans (piece15 x0 x1 x2 s b)
  | ⟨n + 16, h⟩ => exact absurd h (by omega)

end Pieces

/-- The broadcast weights at `(k, s, b)` are the weights at `(k, s)`. -/
private theorem weight_apply (x3 : (⟨S16x256, .f32⟩ : BufTy).Contents (Elt Ideal)) (k : Fin 16) (s : Fin 256) (b : Fin 32768) :
    val_main_v80 (F := Ideal) x3 (ix3 k s b) = val_main_v32 (F := Ideal) x3 (ix2 k s) := by
  rw [val_main_v80_apply, val_main_v79_apply]
  exact congrArg _ (by idx2)

/-- The first product at `(s, b)`. -/
private theorem prodA_apply (x0 : (⟨S256x32768, .f32⟩ : BufTy).Contents (Elt Ideal)) (x1 : (⟨S256x256, .f32⟩ : BufTy).Contents (Elt Ideal)) (s : Fin 256) (b : Fin 32768) :
    val_main_v33 (F := Ideal) x0 x1 (ix2 s b) = rowDot (val_main_v10 (F := Ideal) x1) x0 s b := by
  rw [val_main_v33_apply]
  unfold rowDot
  refine Finset.sum_congr rfl fun k _ => ?_
  rw [show lidx_main_v33 (ix2 s b) k = ix2 s k from by idx2, show ridx_main_v33 (ix2 s b) k = ix2 k b from by idx2]

/-- The second product at `(s, b)`. -/
private theorem prodB_apply (x0 : (⟨S256x32768, .f32⟩ : BufTy).Contents (Elt Ideal)) (x2 : (⟨S256x256, .f32⟩ : BufTy).Contents (Elt Ideal)) (s : Fin 256) (b : Fin 32768) :
    val_main_v34 (F := Ideal) x0 x2 (ix2 s b) = rowDot (val_main_v21 (F := Ideal) x2) x0 s b := by
  rw [val_main_v34_apply]
  unfold rowDot
  refine Finset.sum_congr rfl fun k _ => ?_
  rw [show lidx_main_v34 (ix2 s b) k = ix2 s k from by idx2, show ridx_main_v34 (ix2 s b) k = ix2 k b from by idx2]

/-- The reference's result at `(s, b)`. -/
theorem ref_apply (x0 : (⟨S256x32768, .f32⟩ : BufTy).Contents (Elt Ideal)) (x1 x2 : (⟨S256x256, .f32⟩ : BufTy).Contents (Elt Ideal))
    (x3 : (⟨S16x256, .f32⟩ : BufTy).Contents (Elt Ideal)) (s : Fin 256) (b : Fin 32768) :
    val_main_v82 (F := Ideal) x0 x1 x2 x3 (ix2 s b)
      = refMix (rowDot (val_main_v10 (F := Ideal) x1) x0 s b) (rowDot (val_main_v21 (F := Ideal) x2) x0 s b)
          (fun k => val_main_v32 (F := Ideal) x3 (ix2 k s)) := by
  rw [val_main_v82_apply, val_main_cst_18_apply, Ideal.ofBits_def, Ideal.ofBits_zero_f32]
  unfold refMix
  refine congrArg (0 + ·) (Finset.sum_congr rfl fun k _ => ?_)
  have hi : idx_main_v82 (ix2 s b) k = ix3 k s b := by
    funext a; match a with | ⟨0, _⟩ => rfl | ⟨1, _⟩ => rfl | ⟨2, _⟩ => rfl
  rw [hi, val_main_v81_apply, Ideal.mulf_def, stack_gate, weight_apply, prodA_apply, prodB_apply]

end Cert.Mix

end
-- ==== Proof.GateAlgebra.lean ====
/-
  The sixteen-gate mix collected by basis term equals the weighted sum of the gates, when every quantity is a real
  number: on the reals both sides are the same polynomial in `A`, `B` and the weights. (On the extended reals the
  step needs the operands finite: distributivity fails at infinities.)
-/
import proofs.«137839_j65429531787948_1_alg».proof.Proof.Spec

noncomputable section

open scoped BigOperators

namespace Cert.Mix

open Idealize.ShloMosaic Idealize.ShloMosaic.ValueIdx

/-- A finite sum of extended reals each of which is a real number is a real number. -/
private theorem sum_real {ι : Type*} (s : Finset ι) (f : ι → EReal) (h : ∀ i ∈ s, ∃ r : ℝ, f i = (r : EReal)) :
    ∃ r : ℝ, ∑ i ∈ s, f i = (r : EReal) := by
  refine Finset.sum_induction f (fun x => ∃ r : ℝ, x = (r : EReal)) ?_ ⟨0, EReal.coe_zero.symm⟩ h
  rintro _ _ ⟨x, rfl⟩ ⟨y, rfl⟩
  exact ⟨x + y, (EReal.coe_add x y).symm⟩

/-- An entry of the product of two real-valued matrices is a real number. -/
theorem rowDot_real (P : (⟨2, ![256, 256]⟩ : Shape).Idx → EReal) (X : (⟨2, ![256, 32768]⟩ : Shape).Idx → EReal)
    (hP : IsReal P) (hX : IsReal X) (s : Fin 256) (b : Fin 32768) : ∃ r : ℝ, rowDot P X s b = (r : EReal) := by
  unfold rowDot
  refine sum_real _ _ (fun k _ => ?_)
  obtain ⟨x, hx⟩ := hP (ix2 s k)
  obtain ⟨y, hy⟩ := hX (ix2 k b)
  exact ⟨x * y, by rw [hx, hy, EReal.coe_mul]⟩

/-- A sum over the sixteen indices, written out term by term. -/
private theorem sum16 {M : Type*} [AddCommMonoid M] (f : Fin 16 → M) :
    ∑ k : Fin 16, f k = f 0 + (f 1 + (f 2 + (f 3 + (f 4 + (f 5 + (f 6 + (f 7 + (f 8 + (f 9 + (f 10 + (f 11 + (f 12
      + (f 13 + (f 14 + f 15)))))))))))))) := by
  simp only [Fin.sum_univ_succ, Fin.sum_univ_zero, add_zero]
  rfl

/-- For real `A`, `B` and real weights the two arrangements of the mix agree. -/
theorem kerMix_eq_refMix (A B : EReal) (p : Fin 16 → EReal) (hA : ∃ a : ℝ, A = (a : EReal)) (hB : ∃ b : ℝ, B = (b : EReal))
    (hp : ∀ k, ∃ r : ℝ, p k = (r : EReal)) : kerMix A B p = refMix A B p := by
  obtain ⟨a, rfl⟩ := hA
  obtain ⟨b, rfl⟩ := hB
  choose r hr using hp
  have hp' : p = fun k => ((r k : ℝ) : EReal) := funext hr
  subst hp'
  have g0 : gate 0 (a : EReal) (b : EReal) = 0 := rfl
  have g1 : gate 1 (a : EReal) (b : EReal) = (a : EReal) * b := rfl
  have g2 : gate 2 (a : EReal) (b : EReal) = (a : EReal) - (a : EReal) * b := rfl
  have g3 : gate 3 (a : EReal) (b : EReal) = a := rfl
  have g4 : gate 4 (a : EReal) (b : EReal) = (b : EReal) - (a : EReal) * b := rfl
  have g5 : gate 5 (a : EReal) (b : EReal) = b := rfl
  have g6 : gate 6 (a : EReal) (b : EReal) = ((a : EReal) + b) - two * ((a : EReal) * b) := rfl
  have g7 : gate 7 (a : EReal) (b : EReal) = ((a : EReal) + b) - (a : EReal) * b := rfl
  have g8 : gate 8 (a : EReal) (b : EReal) = 1 - (((a : EReal) + b) - (a : EReal) * b) := rfl
  have g9 : gate 9 (a : EReal) (b : EReal) = 1 - (((a : EReal) + b) - two * ((a : EReal) * b)) := rfl
  have g10 : gate 10 (a : EReal) (b : EReal) = 1 - (b : EReal) := rfl
  have g11 : gate 11 (a : EReal) (b : EReal) = (1 - (b : EReal)) + (a : EReal) * b := rfl
  have g12 : gate 12 (a : EReal) (b : EReal) = 1 - (a : EReal) := rfl
  have g13 : gate 13 (a : EReal) (b : EReal) = (1 - (a : EReal)) + (a : EReal) * b := rfl
  have g14 : gate 14 (a : EReal) (b : EReal) = 1 - (a : EReal) * b := rfl
  have g15 : gate 15 (a : EReal) (b : EReal) = 1 := rfl
  unfold kerMix refMix cConst cA cB cAB
  rw [sum16, g0, g1, g2, g3, g4, g5, g6, g7, g8, g9, g10, g11, g12, g13, g14, g15]
  unfold two
  simp only [← EReal.coe_zero, ← EReal.coe_one, ← EReal.coe_mul, ← EReal.coe_add, ← EReal.coe_sub]
  congr 1
  ring

end Cert.Mix

end
-- ==== Proof.InputsReal.lean ====
/-
  Under the precondition "every entry of every input is finite" each input array is real-valued: the printed predicate is
  the conjunction, over the four arrays, of "every entry's absolute value is below +∞", and an extended real whose absolute
  value is below +∞ is a real number.

  The steps: the conjunction of four one-bit words is one exactly when each is; an all-reduction by "and" from one is one
  exactly when every element is; the element at index `i` is the comparison `max (x i) (-(x i)) < ⊤` (the pattern
  `0x7F800000` denotes `⊤`, and a scalar broadcast reads the scalar at every index); and `max a (-a) < ⊤` excludes both
  `a = ⊤` and `a = ⊥`, which leaves the real numbers.
-/
import proofs.«137839_j65429531787948_1_alg».proof.Proof.Spec
import proofs.«137839_j65429531787948_1_alg».proof.Pre_finite_inputs
import Idealize.ShloMosaic.Lib.ReduceAll
import Idealize.ShloMosaic.Lib.IdealHost

noncomputable section

namespace Cert.Mix

open Idealize.ShloMosaic Idealize.ShloMosaic.ValueIdx

/-- An extended real whose absolute value `max a (-a)` is below `⊤` is a real number. -/
theorem exists_real_of_abs_lt_top (a : EReal) (h : max a (-a) < ⊤) : ∃ r : ℝ, a = (r : EReal) := by
  rw [max_lt_iff] at h
  induction a using EReal.rec with
  | bot => exact absurd h.2 (by simp)
  | top => exact absurd h.1 (lt_irrefl _)
  | coe r => exact ⟨r, rfl⟩

/-- One array: if the all-reduction by "and" of the words `|x i| < +∞` is one, every entry of `x` is a real number. -/
theorem isReal_of_all_abs_lt_inf {S : Shape} {axes : List (Fin S.rank)}
    (hb : Cert.Pre_finite_inputs.S_.BroadcastsInDim S (![] : Fin 0 → Fin S.rank))
    (hr : S.ReducesTo axes Cert.Pre_finite_inputs.S_) (hu : 0 < Cert.Pre_finite_inputs.S_.numel)
    (x : FVec Ideal S .f32) (init : IVec Cert.Pre_finite_inputs.S_ 1)
    (h : Host.reduce IntOp.andi
          (cmpf .olt (Host.absf x)
            (broadcastInDim S ![] hb (constant (F := Ideal) Cert.Pre_finite_inputs.S_ .f32 0x7F800000#32)))
          init hr hu ix0 = 1#1) :
    IsReal x := by
  intro i
  -- the rank-zero shape has one index
  haveI : Subsingleton Cert.Pre_finite_inputs.S_.Idx := ⟨fun _ _ => funext fun d => d.elim0⟩
  have hi := Host.reduce_andi_all _ _ hr hu ix0 h i
  have htop : Ideal.ofBits .f32 0x7F800000#32 = ⊤ := by simp [Ideal.ofBits, Ideal.ieee]
  have hc : Ideal.cmp .olt (max (x i) (-(x i)))
      (broadcastInDim S ![] hb (constant (F := Ideal) Cert.Pre_finite_inputs.S_ .f32 0x7F800000#32) i) = 1#1 := hi
  rw [broadcastInDim_scalar_apply] at hc
  have hc' : Ideal.cmp .olt (max (x i) (-(x i))) (Ideal.ofBits .f32 0x7F800000#32) = 1#1 := hc
  rw [htop] at hc'
  refine exists_real_of_abs_lt_top (x i) ?_
  by_contra hn
  simp [Ideal.cmp, hn] at hc'

/-- If the finiteness predicate of the four arrays is all ones, each array is real-valued. -/
theorem inputs_real [Cert.Pre_finite_inputs.Facts]
    (x0 : FVec Ideal Cert.Pre_finite_inputs.S256x32768 .f32) (x1 x2 : FVec Ideal Cert.Pre_finite_inputs.S256x256 .f32)
    (x3 : FVec Ideal Cert.Pre_finite_inputs.S16x256 .f32)
    (h : Cert.Pre_finite_inputs.fn (F := Ideal) x0 x1 x2 x3 = (fun _ => 1#1)) :
    IsReal x0 ∧ IsReal x1 ∧ IsReal x2 ∧ IsReal x3 := by
  have h0 := congrFun h ValueIdx.ix0
  dsimp only [Cert.Pre_finite_inputs.fn, Cert.Pre_finite_inputs.fn_part1] at h0
  obtain ⟨h012, h3⟩ := IntOp.andi_eq_one.1 h0
  obtain ⟨h01, h2⟩ := IntOp.andi_eq_one.1 h012
  obtain ⟨h0', h1⟩ := IntOp.andi_eq_one.1 h01
  exact ⟨isReal_of_all_abs_lt_inf _ _ _ x0 _ h0', isReal_of_all_abs_lt_inf _ _ _ x1 _ h1,
    isReal_of_all_abs_lt_inf _ _ _ x2 _ h2, isReal_of_all_abs_lt_inf _ _ _ x3 _ h3⟩

end Cert.Mix

end
-- ==== Proof.RealValued.lean ====
/-
  Real-valuedness carried through the operations of a softmax on the extended reals. An array is real-valued when every
  entry is a real number, positive when every entry is a positive real. A broadcast reads entries of its operand, so it keeps
  both; a difference of real-valued arrays is real-valued; the exponential of a real-valued array is positive; the maximum
  along a non-empty axis, folded from −∞, of a real-valued array is real-valued (it is one of the entries); the sum along a
  non-empty axis, from 0, of a positive array is positive; and a real-valued array divided entrywise by a positive one is
  real-valued. The f32 patterns of −∞ and of zero, splatted, are −∞ and zero at every index, and a broadcast of an array
  that is −∞ everywhere is −∞ everywhere. Nothing here mentions a program.
-/
import proofs.«137839_j65429531787948_1_alg».proof.Proof.Spec
import Idealize.ShloMosaic.PureOps.Ideal.Laws
import Idealize.ShloMosaic.PureOps.Reduce
import Idealize.ShloMosaic.Lib.IdealHost
import Idealize.ShloMosaic.Lib.Pipeline.Value

noncomputable section

open scoped BigOperators

namespace Cert.Mix

open Idealize.ShloMosaic Idealize.ShloMosaic.ValueIdx

/-- An array of extended reals all of whose entries are positive real numbers. -/
def IsPosReal {S : Shape} (v : S.Idx → EReal) : Prop := ∀ i, ∃ r : ℝ, 0 < r ∧ v i = (r : EReal)

theorem IsPosReal.isReal {S : Shape} {v : S.Idx → EReal} (h : IsPosReal v) : IsReal v := fun i =>
  let ⟨r, _, e⟩ := h i; ⟨r, e⟩

/-- A broadcast along new or unit axes reads entries of its operand. -/
theorem isReal_broadcastInDim {s t : Shape} (dims : Fin s.rank → Fin t.rank) (h : s.BroadcastsInDim t dims) (x : s.Idx → EReal)
    (hx : IsReal x) : IsReal (broadcastInDim t dims h x) := by
  intro j
  unfold broadcastInDim
  exact hx _

theorem isPosReal_broadcastInDim {s t : Shape} (dims : Fin s.rank → Fin t.rank) (h : s.BroadcastsInDim t dims) (x : s.Idx → EReal)
    (hx : IsPosReal x) : IsPosReal (broadcastInDim t dims h x) := by
  intro j
  unfold broadcastInDim
  exact hx _

/-- A difference of real-valued arrays is real-valued. -/
theorem isReal_subf {s : Shape} {φ : FTy} (a b : FVec Ideal s φ) (ha : IsReal a) (hb : IsReal b) : IsReal (subf a b) := by
  intro i
  obtain ⟨r, hr⟩ := ha i
  obtain ⟨q, hq⟩ := hb i
  refine ⟨r - q, ?_⟩
  show a i - b i = _
  rw [hr, hq, EReal.coe_sub]

/-- The entrywise maximum with an array that is −∞ everywhere is the other array. -/
theorem isReal_maximumf_bot {s : Shape} {φ : FTy} (a b : FVec Ideal s φ) (ha : ∀ i, a i = ⊥) (hb : IsReal b) :
    IsReal (maximumf a b) := by
  intro i
  obtain ⟨q, hq⟩ := hb i
  refine ⟨q, ?_⟩
  show max (a i) (b i) = _
  rw [ha i, hq]
  exact max_eq_right bot_le

/-- The host's exponential of a real-valued array is positive. -/
theorem isPosReal_hostExp {s : Shape} {φ : FTy} (a : FVec Ideal s φ) (ha : IsReal a) : IsPosReal (Host.exp a) := by
  intro i
  obtain ⟨r, hr⟩ := ha i
  refine ⟨Real.exp r, Real.exp_pos r, ?_⟩
  show Ideal.exp (a i) = _
  rw [hr]
  rfl

/-- An extended real strictly between −∞ and +∞ is a real number. -/
theorem exists_coe_of_bot_lt_of_lt_top {m : EReal} (h1 : ⊥ < m) (h2 : m < ⊤) : ∃ r : ℝ, m = (r : EReal) :=
  ⟨m.toReal, (EReal.coe_toReal (ne_of_lt h2) (ne_of_gt h1)).symm⟩

/-- The maximum, folded from −∞, of a non-empty finite family of reals is a real: it is below +∞ because every term and the
    start are, and above −∞ because one term is. -/
theorem fold_max_bot_real {ι : Type} (t : Finset ι) (f : ι → EReal) (hf : ∀ k, ∃ r : ℝ, f k = (r : EReal)) (k0 : ι)
    (hk0 : k0 ∈ t) : ∃ r : ℝ, t.fold max ⊥ f = (r : EReal) := by
  refine exists_coe_of_bot_lt_of_lt_top ?_ ?_
  · refine (Finset.lt_fold_max _).2 (Or.inr ⟨k0, hk0, ?_⟩)
    obtain ⟨r, hr⟩ := hf k0
    rw [hr]
    exact EReal.bot_lt_coe r
  · refine (Finset.fold_max_lt _).2 ⟨bot_lt_top, fun k _ => ?_⟩
    obtain ⟨r, hr⟩ := hf k
    rw [hr]
    exact EReal.coe_lt_top r

/-- The host's maximum along ONE non-empty axis, folded from −∞, of a real-valued array is real-valued. -/
theorem isReal_hostReduceMax {s t u : Shape} {φ : FTy} {a : Fin s.rank} (x : FVec Ideal s φ) (init : u.Idx → Ideal φ)
    (h' : s.ReducesTo [a] t) (h : s.Reduces [a] t) (hu : 0 < u.numel) (hinit : init (Shape.Idx.first hu) = ⊥)
    (hpos : 0 < s.size a) (hx : IsReal x) : IsReal (Host.reduce (FloatOps.maximumf (F := Ideal) (φ := φ)) x init h' hu) := by
  intro j
  rw [Host.reduce_eq_fold_single (FloatOps.maximumf (F := Ideal) (φ := φ)) x init h' h hu j, hinit]
  exact fold_max_bot_real Finset.univ (x ∘ h.lift j) (fun k => hx _) ⟨0, hpos⟩ (Finset.mem_univ _)

/-- The coercion of a finite sum of reals is the sum of the coercions. -/
theorem coe_finset_sum {ι : Type} (t : Finset ι) (f : ι → ℝ) : ((∑ k ∈ t, f k : ℝ) : EReal) = ∑ k ∈ t, (f k : EReal) := by
  classical
  refine Finset.induction_on t (by simp) fun k t hk ih => ?_
  rw [Finset.sum_insert hk, Finset.sum_insert hk, EReal.coe_add, ih]

/-- The host's sum along ONE non-empty axis, from 0, of a positive array is positive. -/
theorem isPosReal_hostReduceAdd {s t u : Shape} {φ : FTy} {a : Fin s.rank} (x : FVec Ideal s φ) (init : u.Idx → Ideal φ)
    (h' : s.ReducesTo [a] t) (h : s.Reduces [a] t) (hu : 0 < u.numel) (hinit : init (Shape.Idx.first hu) = 0)
    (hpos : 0 < s.size a) (hx : IsPosReal x) : IsPosReal (Host.reduceAdd x init h' hu) := by
  intro j
  rw [hostReduceAdd_apply, Ideal.hostReduceAdd_single h' h, hinit, zero_add]
  choose f hfpos hf using hx
  refine ⟨∑ k : Fin (s.size a), f (h.lift j k), Finset.sum_pos (fun k _ => hfpos _) ⟨⟨0, hpos⟩, Finset.mem_univ _⟩, ?_⟩
  rw [coe_finset_sum]
  exact Finset.sum_congr rfl fun k _ => hf _

/-- The host's quotient of a real-valued array by a positive one is real-valued. -/
theorem isReal_hostDivf {s : Shape} {φ : FTy} (a b : FVec Ideal s φ) (ha : IsReal a) (hb : IsPosReal b) : IsReal (Host.divf a b) := by
  intro i
  obtain ⟨r, hr⟩ := ha i
  obtain ⟨q, hqpos, hq⟩ := hb i
  refine ⟨r * (1 / q), ?_⟩
  show Ideal.div (a i) (b i) = _
  rw [hq, Ideal.div_coe (ne_of_gt hqpos), hr, ← EReal.coe_mul]

/-- The f32 pattern of −∞ is the extended reals' bottom. -/
theorem ofBits_neg_inf_f32 : Ideal.ofBits .f32 0xFF800000#32 = ⊥ := by
  simp [Ideal.ofBits, Ideal.ieee]

/-- A splat of the f32 pattern of −∞ is −∞ at every index. -/
theorem constant_neg_inf_f32 {s : Shape} (i : s.Idx) : constant (F := Ideal) s .f32 0xFF800000#32 i = ⊥ :=
  ofBits_neg_inf_f32

/-- A splat of the f32 pattern of zero is zero at every index. -/
theorem constant_zero_f32 {s : Shape} (i : s.Idx) : constant (F := Ideal) s .f32 0x00000000#32 i = 0 :=
  Ideal.ofBits_zero_f32

/-- A broadcast of an array that is −∞ everywhere is −∞ everywhere. -/
theorem broadcastInDim_bot {s t : Shape} (dims : Fin s.rank → Fin t.rank) (h : s.BroadcastsInDim t dims) (x : s.Idx → EReal)
    (hx : ∀ i, x i = ⊥) (j : t.Idx) : broadcastInDim t dims h x j = ⊥ := by
  unfold broadcastInDim
  exact hx _

end Cert.Mix

end
-- ==== Proof.SoftmaxReal.lean ====
/-
  The three softmax outputs of the reference program are real-valued when their inputs are. Each softmax is ten or eleven
  stages: the maximum along the reduced axis, folded from −∞ (real-valued, the axis being non-empty); its entrywise maximum
  with a broadcast −∞ (the same array); two broadcasts back to the operand's shape (they read entries); the difference of
  the operand and that (real-valued); its exponential (positive); the sum along the reduced axis, from 0 (positive); two
  broadcasts again (positive); and the quotient of the exponential by that (a real divided by a positive real). The first
  two softmaxes run along the rows of a `[256, 256]` array, the third along the columns of a `[16, 256]` array. This is
  what lets the sixteen-gate law, which holds on the extended reals only at finite operands, be applied to them.
-/
import proofs.«137839_j65429531787948_1_alg».proof.Proof.RealValued
import proofs.«137839_j65429531787948_1_alg».proof.Proof.RefRead

noncomputable section

namespace Cert.Mix

open Idealize.ShloMosaic Idealize.ShloMosaic.ValueIdx
open Cert.ReferenceIdeal Cert.ReferenceIdeal.Gen Cert.ReferenceIdeal.ReadP

/-- The row softmax of a real-valued `[256, 256]` array is real-valued: its ten stages, one after the other. -/
theorem softmax_v10_real (x1 : (⟨S256x256, .f32⟩ : BufTy).Contents (Elt Ideal)) (h : IsReal x1) :
    IsReal (val_main_v10 (F := Ideal) x1) := by
  have h0 : IsReal (val_main_v0 (F := Ideal) x1) :=
    isReal_hostReduceMax x1 _ reducesTo_S256x256_S256_d1 (by decide) h_S_ (constant_neg_inf_f32 _) (by decide) h
  have h1 : ∀ i, val_main_v1 (F := Ideal) i = ⊥ := broadcastInDim_bot _ _ _ constant_neg_inf_f32
  have h2 : IsReal (val_main_v2 (F := Ideal) x1) := isReal_maximumf_bot _ _ h1 h0
  have h3 : IsReal (val_main_v3 (F := Ideal) x1) := isReal_broadcastInDim _ _ _ h2
  have h4 : IsReal (val_main_v4 (F := Ideal) x1) := isReal_broadcastInDim _ _ _ h3
  have h5 : IsReal (val_main_v5 (F := Ideal) x1) := isReal_subf _ _ h h4
  have h6 : IsPosReal (val_main_v6 (F := Ideal) x1) := isPosReal_hostExp _ h5
  have h7 : IsPosReal (val_main_v7 (F := Ideal) x1) :=
    isPosReal_hostReduceAdd _ _ reducesTo_S256x256_S256_d1 (by decide) h_S_ (constant_zero_f32 _) (by decide) h6
  have h8 : IsPosReal (val_main_v8 (F := Ideal) x1) := isPosReal_broadcastInDim _ _ _ h7
  have h9 : IsPosReal (val_main_v9 (F := Ideal) x1) := isPosReal_broadcastInDim _ _ _ h8
  exact isReal_hostDivf _ _ h6.isReal h9

/-- The same for the second `[256, 256]` operand. -/
theorem softmax_v21_real (x2 : (⟨S256x256, .f32⟩ : BufTy).Contents (Elt Ideal)) (h : IsReal x2) :
    IsReal (val_main_v21 (F := Ideal) x2) := by
  have h0 : IsReal (val_main_v11 (F := Ideal) x2) :=
    isReal_hostReduceMax x2 _ reducesTo_S256x256_S256_d1 (by decide) h_S_ (constant_neg_inf_f32 _) (by decide) h
  have h1 : ∀ i, val_main_v12 (F := Ideal) i = ⊥ := broadcastInDim_bot _ _ _ constant_neg_inf_f32
  have h2 : IsReal (val_main_v13 (F := Ideal) x2) := isReal_maximumf_bot _ _ h1 h0
  have h3 : IsReal (val_main_v14 (F := Ideal) x2) := isReal_broadcastInDim _ _ _ h2
  have h4 : IsReal (val_main_v15 (F := Ideal) x2) := isReal_broadcastInDim _ _ _ h3
  have h5 : IsReal (val_main_v16 (F := Ideal) x2) := isReal_subf _ _ h h4
  have h6 : IsPosReal (val_main_v17 (F := Ideal) x2) := isPosReal_hostExp _ h5
  have h7 : IsPosReal (val_main_v18 (F := Ideal) x2) :=
    isPosReal_hostReduceAdd _ _ reducesTo_S256x256_S256_d1 (by decide) h_S_ (constant_zero_f32 _) (by decide) h6
  have h8 : IsPosReal (val_main_v19 (F := Ideal) x2) := isPosReal_broadcastInDim _ _ _ h7
  have h9 : IsPosReal (val_main_v20 (F := Ideal) x2) := isPosReal_broadcastInDim _ _ _ h8
  exact isReal_hostDivf _ _ h6.isReal h9

/-- The column softmax (along axis 0) of a real-valued `[16, 256]` array is real-valued. -/
theorem softmax_v32_real (x3 : (⟨S16x256, .f32⟩ : BufTy).Contents (Elt Ideal)) (h : IsReal x3) :
    IsReal (val_main_v32 (F := Ideal) x3) := by
  have h0 : IsReal (val_main_v22 (F := Ideal) x3) :=
    isReal_hostReduceMax x3 _ reducesTo_S16x256_S256_d0 (by decide) h_S_ (constant_neg_inf_f32 _) (by decide) h
  have h1 : ∀ i, val_main_v23 (F := Ideal) i = ⊥ := broadcastInDim_bot _ _ _ constant_neg_inf_f32
  have h2 : IsReal (val_main_v24 (F := Ideal) x3) := isReal_maximumf_bot _ _ h1 h0
  have h3 : IsReal (val_main_v25 (F := Ideal) x3) := isReal_broadcastInDim _ _ _ h2
  have h4 : IsReal (val_main_v26 (F := Ideal) x3) := isReal_broadcastInDim _ _ _ h3
  have h5 : IsReal (val_main_v27 (F := Ideal) x3) := isReal_subf _ _ h h4
  have h6 : IsPosReal (val_main_v28 (F := Ideal) x3) := isPosReal_hostExp _ h5
  have h7 : IsPosReal (val_main_v29 (F := Ideal) x3) :=
    isPosReal_hostReduceAdd _ _ reducesTo_S16x256_S256_d0 (by decide) h_S_ (constant_zero_f32 _) (by decide) h6
  have h8 : IsPosReal (val_main_v30 (F := Ideal) x3) := isPosReal_broadcastInDim _ _ _ h7
  have h9 : IsPosReal (val_main_v31 (F := Ideal) x3) := isPosReal_broadcastInDim _ _ _ h8
  exact isReal_hostDivf _ _ h6.isReal h9

end Cert.Mix

end
-- ==== Proof.lean ====
/-
  The certificate of the fused sixteen-gate mix. The kernel computes, per entry `(s, b)`,
  `c₀[s] + c_A[s]·A + c_B[s]·B + c_AB[s]·(A·B)` with `A = (softmax_rows(wa) · x)[s, b]`, `B = (softmax_rows(wb) · x)[s, b]` and the four
  coefficients sums and differences of the sixteen weights `p_k = softmax_cols(wt)[k, s]`; the reference computes
  `0 + ∑ k, gate_k(A, B) · p_k` over the sixteen soft two-input gates. Each gate is affine in `1, A, B, A·B`, so over the reals
  the two are one polynomial. On the extended reals the step needs every operand finite: the precondition makes the inputs
  real, a softmax of real entries is real (a positive exponential over a positive sum), and a finite sum of products of reals
  is real. The three softmax arrays are the same terms in both programs and are never opened except for that finiteness.
  The frames of the two kernel programs are the generated ones; the reference's frame is its run with the result dropped;
  the idealization rewrote nothing, so `preserves` is trivial.
-/
import proofs.«137839_j65429531787948_1_alg».proof.Defs
import proofs.«137839_j65429531787948_1_alg».proof.Proof.Gen.Kernel
import proofs.«137839_j65429531787948_1_alg».proof.Proof.Gen.Kernel.Skeleton
import proofs.«137839_j65429531787948_1_alg».proof.Proof.Gen.Kernel.Launch
import proofs.«137839_j65429531787948_1_alg».proof.Proof.Gen.Kernel.Points
import proofs.«137839_j65429531787948_1_alg».proof.Proof.Gen.Kernel.Frame
import proofs.«137839_j65429531787948_1_alg».proof.Proof.Gen.KernelIdeal
import proofs.«137839_j65429531787948_1_alg».proof.Proof.Gen.KernelIdeal.Skeleton
import proofs.«137839_j65429531787948_1_alg».proof.Proof.Gen.KernelIdeal.Launch
import proofs.«137839_j65429531787948_1_alg».proof.Proof.Gen.KernelIdeal.Points
import proofs.«137839_j65429531787948_1_alg».proof.Proof.Gen.KernelIdeal.Frame
import proofs.«137839_j65429531787948_1_alg».proof.Proof.Gen.ReferenceIdeal
import proofs.«137839_j65429531787948_1_alg».proof.Proof.Gen.Pre_finite_inputs
import proofs.«137839_j65429531787948_1_alg».proof.Proof.Gen.KernelIdeal.Value
import proofs.«137839_j65429531787948_1_alg».proof.Proof.RefRun
import proofs.«137839_j65429531787948_1_alg».proof.Proof.RefRead
import proofs.«137839_j65429531787948_1_alg».proof.Proof.KernelValue
import proofs.«137839_j65429531787948_1_alg».proof.Proof.KernelHost
import proofs.«137839_j65429531787948_1_alg».proof.Proof.KernelRefHost
import proofs.«137839_j65429531787948_1_alg».proof.Proof.RefMix
import proofs.«137839_j65429531787948_1_alg».proof.Proof.GateAlgebra
import proofs.«137839_j65429531787948_1_alg».proof.Proof.InputsReal
import proofs.«137839_j65429531787948_1_alg».proof.Proof.SoftmaxReal
import Idealize.ShloMosaic.Adequacy
import Idealize.ShloMosaic.Init

noncomputable section

namespace Cert.Proof

open Idealize.ShloMosaic Idealize.SL.Sem Idealize.ShloMosaic.ValueIdx Cert.Mix

/-- The kernel's result array is the reference's result term of the same arguments, when the arguments are real-valued:
    entry by entry the kernel's collected form and the reference's weighted sum of gates agree. -/
theorem result_eq (m : (ℓ : Loc Cert.KernelIdeal.nD Cert.KernelIdeal.τ Cert.KernelIdeal.sig) → Buf (Elt Ideal) ℓ) (c : Dev Cert.KernelIdeal.nD)
    (h0 : IsReal (m ((c.tc : Thread Cert.KernelIdeal.nD Cert.KernelIdeal.τ).loc Cert.KernelIdeal.main_arg0)))
    (h1 : IsReal (m ((c.tc : Thread Cert.KernelIdeal.nD Cert.KernelIdeal.τ).loc Cert.KernelIdeal.main_arg1)))
    (h2 : IsReal (m ((c.tc : Thread Cert.KernelIdeal.nD Cert.KernelIdeal.τ).loc Cert.KernelIdeal.main_arg2)))
    (h3 : IsReal (m ((c.tc : Thread Cert.KernelIdeal.nD Cert.KernelIdeal.τ).loc Cert.KernelIdeal.main_arg3))) :
    Cert.ReferenceIdeal.ReadP.val_main_v82 (F := Ideal)
        (m ((c.tc : Thread Cert.KernelIdeal.nD Cert.KernelIdeal.τ).loc Cert.KernelIdeal.main_arg0))
        (m ((c.tc : Thread Cert.KernelIdeal.nD Cert.KernelIdeal.τ).loc Cert.KernelIdeal.main_arg1))
        (m ((c.tc : Thread Cert.KernelIdeal.nD Cert.KernelIdeal.τ).loc Cert.KernelIdeal.main_arg2))
        (m ((c.tc : Thread Cert.KernelIdeal.nD Cert.KernelIdeal.τ).loc Cert.KernelIdeal.main_arg3))
      = Cert.KernelIdeal.MixValue.result m c := by
  funext i
  obtain ⟨s, b, rfl⟩ : ∃ (s : Fin 256) (b : Fin 32768), i = ix2 s b := ⟨i 0, i 1, eq_ix2 i⟩
  rw [Cert.Mix.ref_apply]
  show _ = Cert.KernelIdeal.MixValue.mixAt _ _ _ _ _ _ _ s b
  unfold Cert.KernelIdeal.MixValue.mixAt
  rw [Cert.KernelIdeal.MixHost.V_v99, Cert.KernelIdeal.MixHost.V_v100, Cert.KernelIdeal.MixHost.V_v101, Cert.KernelIdeal.MixHost.V_v102,
    Cert.KernelIdeal.MixHost.coefConst_apply, Cert.KernelIdeal.MixHost.coefA_apply, Cert.KernelIdeal.MixHost.coefB_apply,
    Cert.KernelIdeal.MixHost.coefAB_apply, Cert.KernelIdeal.MixHost.V_v10, Cert.KernelIdeal.MixHost.V_v21, Cert.KernelIdeal.MixHost.V_v32,
    Cert.KernelIdeal.Gen.V_main_arg0]
  exact (kerMix_eq_refMix _ _ _
    (rowDot_real _ _ (softmax_v10_real _ h1) h0 s b) (rowDot_real _ _ (softmax_v21_real _ h2) h0 s b)
    (fun k => softmax_v32_real _ h3 (ix2 k s))).symm

/-- At the exact instance the kernel's result array ends at `result` (the collected form of the arrays its program computes
    before the region) and the reference's at its staged term of arguments that agree; the precondition makes the arguments
    real-valued, and then the two are one function (`result_eq`). -/
theorem algebraic : Cert.algebraic_KernelIdeal_ReferenceIdeal := by
  intro m ρ m' ρ' hpre hagree
  refine ⟨fun c => Cert.KernelIdeal.MixValue.result m c, Cert.KernelIdeal.MixValue.run m ρ, ?_⟩
  refine (θ_run Cert.ReferenceIdeal.defs _ _).mono (fun _ h c => ⟨(h c).1.trans ?_, (h c).2⟩)
    (Cert.ReferenceIdeal.RunP.run (F := Ideal) m' ρ')
  rw [Cert.ReferenceIdeal.ReadP.val_main_v82_eq, (hagree c).1, (hagree c).2.1, (hagree c).2.2.1, (hagree c).2.2.2]
  obtain ⟨r0, r1, r2, r3⟩ := inputs_real _ _ _ _ (hpre c)
  exact result_eq m c r0 r1 r2 r3

theorem claim : Cert.Claim := ⟨Cert.Kernel.Gen.facts, Cert.KernelIdeal.Gen.facts, Cert.ReferenceIdeal.Gen.facts, Cert.Pre_finite_inputs.Gen.facts,
  fun m ρ _ => Cert.Kernel.Gen.frame m ρ,
  fun m ρ _ => Cert.KernelIdeal.Gen.frame m ρ,
  fun m ρ _ => (θ_run Cert.ReferenceIdeal.defs _ _).mono (fun _ h c => (h c).2) (Cert.ReferenceIdeal.RunP.run (F := Ideal) m ρ),
  trivial,
  algebraic⟩

end Cert.Proof

end
